-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x128 : Shape := ⟨2, ![128, 128]⟩
abbrev S128x50 : Shape := ⟨2, ![128, 50]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S800000x50 : S_.BroadcastsInDim S800000x50 (![] : Fin 0 → Fin S800000x50.rank)
  reducesTo_S800000x50_S_d0_1 : S800000x50.ReducesTo [0, 1] S_
  bcast_S_S128x128 : S_.BroadcastsInDim S128x128 (![] : Fin 0 → Fin S128x128.rank)
  reducesTo_S128x128_S_d0_1 : S128x128.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x800000 32 := broadcastInDim S2x800000 ![] bcast_S_S2x800000 main_c_22
  let main_v60 : IVec S2x800000 1 := cmpi .sge main_arg1 main_v59
  let main_c_23 : IVec S_ 1 := constantI S_ 1 1#1
  let main_v61 : IVec S_ 1 := (fun x v => Host.reduce IntOp.andi x v reducesTo_S2x800000_S_d0_1 h_S_) main_v60 main_c_23
  let main_v62 : IVec S_ 1 := andi main_v58 main_v61
  let main_c_24 : IVec S_ 32 := constantI S_ 32 50000#32
  let main_v63 : IVec S2x800000 32 := broadcastInDim S2x800000 ![] bcast_S_S2x800000 main_c_24
  let main_v64 : IVec S2x800000 1 := cmpi .slt main_arg1 main_v63
  let main_c_25 : IVec S_ 1 := constantI S_ 1 1#1
  let main_v65 : IVec S_ 1 := (fun x v => Host.reduce IntOp.andi x v reducesTo_S2x800000_S_d0_1 h_S_) main_v64 main_c_25
  let main_v66 : IVec S_ 1 := andi main_v62 main_v65
  main_v66

def fn_part2 {F : FTy → Type} [FloatOps F] (main_arg1 : IVec S2x800000 32) (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_v48 main_v49 main_v50

def fn_part1 {F : FTy → Type} [FloatOps F] (main_arg1 : IVec S2x800000 32) (main_arg5 : FVec F S128x50 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x50 .f32 := Host.absf main_arg5
  let main_cst_6 : FVec F S_ .f32 := constant S_ .f32 0x7F800000#32
  let main_v20 : FVec F S128x50 .f32 := broadcastInDim S128x50 ![] bcast_S_S128x50 main_cst_6
  let main_v21 : IVec S128x50 1 := cmpf .olt main_v19 main_v20
  let main_c_7 : IVec S_ 1 := constantI S_ 1 1#1
  let main_v22 : IVec S_ 1 := (fun x v => Host.reduce IntOp.andi x v reducesTo_S128x50_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x128 .f32) (main_arg1 : IVec S2x800000 32) (main_arg2 : FVec F S800000 .f32) (main_arg3 : FVec F S800000x50 .f32) (main_arg4 : FVec F S128x128 .f32) (main_arg5 : FVec F S128x50 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000x50 .f32 := Host.absf main_arg3
  let main_cst_2 : FVec F S_ .f32 := constant S_ .f32 0x7F800000#32
  let main_v10 : FVec F S800000x50 .f32 := broadcastInDim S800000x50 ![] bcast_S_S800000x50 main_cst_2
  let main_v11 : IVec S800000x50 1 := cmpf .olt main_v9 main_v10
  let main_c_3 : IVec S_ 1 := constantI S_ 1 1#1
  let main_v12 : IVec S_ 1 := (fun x v => Host.reduce IntOp.andi x v reducesTo_S800000x50_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x128 : Shape := ⟨2, ![128, 128]⟩
abbrev S128x50 : Shape := ⟨2, ![128, 50]⟩
abbrev S128 : Shape := ⟨1, ![128]⟩
abbrev S2000x128 : Shape := ⟨2, ![2000, 128]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S4000x50 : Shape := ⟨2, ![4000, 50]⟩
abbrev S4000x128 : Shape := ⟨2, ![4000, 128]⟩
abbrev S50x128 : Shape := ⟨2, ![50, 128]⟩

abbrev nBuf : Space → Nat
  | .hbm => 83
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S128x128, .f32⟩
  | .hbm, ⟨5, _⟩ => ⟨S128x50, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S50000x128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S1, .i32⟩
  | .hbm, ⟨27, _⟩ => ⟨S_, .i32⟩
  | .hbm, ⟨28, _⟩ => ⟨S800000x1, .i32⟩
  | .hbm, ⟨29, _⟩ => ⟨S800000x1, .i1⟩
  | .hbm, ⟨30, _⟩ => ⟨S1x1, .i32⟩
  | .hbm, ⟨31, _⟩ => ⟨S800000x1, .i32⟩
  | .hbm, ⟨32, _⟩ => ⟨S800000x1, .i1⟩
  | .hbm, ⟨33, _⟩ => ⟨S800000x1, .i1⟩
  | .hbm, ⟨34, _⟩ => ⟨S_, .i1⟩
  | .hbm, ⟨35, _⟩ => ⟨S800000, .i1⟩
  | .hbm, ⟨36, _⟩ => ⟨S800000x128, .f32⟩
  | .hbm, ⟨37, _⟩ => ⟨S800000x128, .i1⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S1, .i32⟩
  | .hbm, ⟨50, _⟩ => ⟨S_, .i32⟩
  | .hbm, ⟨51, _⟩ => ⟨S800000x1, .i32⟩
  | .hbm, ⟨52, _⟩ => ⟨S800000x1, .i1⟩
  | .hbm, ⟨53, _⟩ => ⟨S1x1, .i32⟩
  | .hbm, ⟨54, _⟩ => ⟨S800000x1, .i32⟩
  | .hbm, ⟨55, _⟩ => ⟨S800000x1, .i1⟩
  | .hbm, ⟨56, _⟩ => ⟨S800000x1, .i1⟩
  | .hbm, ⟨57, _⟩ => ⟨S_, .i1⟩
  | .hbm, ⟨58, _⟩ => ⟨S800000, .i1⟩
  | .hbm, ⟨59, _⟩ => ⟨S800000x128, .f32⟩
  | .hbm, ⟨60, _⟩ => ⟨S800000x128, .i1⟩
  | .hbm, ⟨61, _⟩ => ⟨S_, .f32⟩
  | .hbm, ⟨62, _⟩ => ⟨S800000x128, .f32⟩
  | .hbm, ⟨63, _⟩ => ⟨S800000x128, .f32⟩
  | .hbm, ⟨64, _⟩ => ⟨S1x128, .f32⟩
  | .hbm, ⟨65, _⟩ => ⟨S1x128, .f32⟩
  | .hbm, ⟨66, _⟩ => ⟨S800000x128, .bf16⟩
  | .hbm, ⟨67, _⟩ => ⟨S800000x128, .bf16⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x128, .f32⟩
  | .hbm, ⟨79, _⟩ => ⟨S50000x128, .bf16⟩
  | .hbm, ⟨80, _⟩ => ⟨S1x128, .f32⟩
  | .hbm, ⟨81, _⟩ => ⟨S1x128, .f32⟩
  | .hbm, ⟨82, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S4000x50, .f32⟩
  | .local _ .vmem, ⟨6, _⟩ => ⟨S4000x50, .f32⟩
  | .local _ .vmem, ⟨7, _⟩ => ⟨S128x50, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .bf16⟩
  | .local _ .vmem, ⟨16, _⟩ => ⟨S4000x128, .bf16⟩
  | .local _ .vmem, ⟨17, _⟩ => ⟨S4000x128, .bf16⟩
  | .local _ .vmem, ⟨18, _⟩ => ⟨S4000x128, .bf16⟩
  | .local _ .vmem, ⟨19, _⟩ => ⟨S2000x128, .bf16⟩
  | .local _ .vmem, ⟨20, _⟩ => ⟨S2000x128, .bf16⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9_0 : Ref sig .tc := ⟨.hbm, 66, rfl⟩
abbrev main_v9_1 : Ref sig .tc := ⟨.hbm, 67, rfl⟩
abbrev main_v10 : Ref sig .tc := ⟨.hbm, 68, rfl⟩
abbrev main_cst : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_cst_0 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S128_S1x128 : S128.ShapeCasts S1x128
  inb_S4000x50_S4000x50_0_0 : ∀ a, (![0, 0] : Fin 2 → Nat) a + S4000x50.size a ≤ S4000x50.size a
  h_S4000x50 : 0 < S4000x50.numel
  inb_S128x50_S128x50_0_0 : ∀ a, (![0, 0] : Fin 2 → Nat) a + S128x50.size a ≤ S128x50.size a
  h_S128x50 : 0 < S128x50.numel
  transposes_S128x50_p1_0_S50x128 : S128x50.Transposes [1, 0] S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  packedbf16_S4000x128_S4000x128_0_0 : (Rect.unit (s := S4000x128) ![0, 0] S4000x128.size inb_S4000x128_S4000x128_0_0).PackedRows (EltTy.packing .bf16)
  bcast_S_S50000x128 : S_.BroadcastsInDim S50000x128 (![] : Fin 0 → Fin S50000x128.rank)
  shapeCasts_S2000x128_S2000x128 : S2000x128.ShapeCasts S2000x128
  broadcasts_S1x128_S2000x128 : S1x128.Broadcasts S2000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S4000x50_S50x128_S4000x128_1_0_0_1_n_n_wf : DotDims.WF S4000x50 S50x128 S4000x128 [1] [0] [0] [1] [] []
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x50.size a ≤ S800000x50.size a
  hwx1_0 : ∀ i : grid1.Coords, EltTy.bits .f32 = 32 ∨ (Rect.block (s := S800000x50) S4000x50.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x50.size a ≤ S128x50.size a
  hwx1_1 : ∀ i : grid1.Coords, EltTy.bits .f32 = 32 ∨ (Rect.block (s := S128x50) S128x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S800000x128.size a
  hwx1_5 : ∀ i : grid1.Coords, EltTy.bits .f32 = 32 ∨ (Rect.block (s := S800000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S800000x128.size a
  hwx1_6 : ∀ i : grid1.Coords, EltTy.bits .f32 = 32 ∨ (Rect.block (s := S800000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S800000x128.size a
  hwx1_7 : ∀ i : grid1.Coords, EltTy.bits .bf16 = 32 ∨ (Rect.block (s := S800000x128) S4000x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S800000x128.size a
  hwx1_8 : ∀ i : grid1.Coords, EltTy.bits .bf16 = 32 ∨ (Rect.block (s := S800000x128) S4000x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x50_S50x128_S4000x128_1_0_0_1_n_n : DotDims S4000x50 S50x128 S4000x128 where
  lhsContracting := [1]
  rhsContracting := [0]
  lhsNonContracting := [0]
  rhsNonContracting := [1]
  lhsBatch := []
  rhsBatch := []
  wf := dot_S4000x50_S50x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S4000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S4000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6) S4000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v9_0) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v9_1) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v19) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x128 : Shape := ⟨2, ![128, 128]⟩
abbrev S128x50 : Shape := ⟨2, ![128, 50]⟩
abbrev S128 : Shape := ⟨1, ![128]⟩
abbrev S50x128 : Shape := ⟨2, ![50, 128]⟩
abbrev S800000x128 : Shape := ⟨2, ![800000, 128]⟩
abbrev S1x128 : Shape := ⟨2, ![1, 128]⟩
abbrev S_ : Shape := ⟨0, ![]⟩
abbrev S1x800000 : Shape := ⟨2, ![1, 800000]⟩
abbrev S800000x1 : Shape := ⟨2, ![800000, 1]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S128x128, .f32⟩
  | .hbm, ⟨5, _⟩ => ⟨S128x50, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S50x128, .f32⟩
  | .hbm, ⟨14, _⟩ => ⟨S800000x128, .f32⟩
  | .hbm, ⟨15, _⟩ => ⟨S1x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S800000x128, .i1⟩
  | .hbm, ⟨24, _⟩ => ⟨S800000x128, .f32⟩
  | .hbm, ⟨25, _⟩ => ⟨S800000x128, .f32⟩
  | .hbm, ⟨26, _⟩ => ⟨S800000x128, .f32⟩
  | .hbm, ⟨27, _⟩ => ⟨S800000x128, .f32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S800000x128, .f32⟩
  | .hbm, ⟨34, _⟩ => ⟨S800000x128, .f32⟩
  | .hbm, ⟨35, _⟩ => ⟨S128x128, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S128x128, .f32⟩
  | .hbm, ⟨41, _⟩ => ⟨S50000x128, .f32⟩
  | .hbm, ⟨42, _⟩ => ⟨S1x800000, .i32⟩
  | .hbm, ⟨43, _⟩ => ⟨S800000, .i32⟩
  | .hbm, ⟨44, _⟩ => ⟨S1x800000, .i32⟩
  | .hbm, ⟨45, _⟩ => ⟨S800000, .i32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .i1⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S128x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_1 : Ref sig .tc := ⟨.hbm, 56, rfl⟩
abbrev main_v27 : Ref sig .tc := ⟨.hbm, 57, rfl⟩
abbrev main_v28 : Ref sig .tc := ⟨.hbm, 58, rfl⟩
abbrev main_c_2 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_3 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_4 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_v47 : Ref sig .tc := ⟨.hbm, 93, rfl⟩
abbrev main_cst_5 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩

abbrev nD : Nat := 1
abbrev τ : Topo := Topo.v7x

variable {F : FTy → Type} [FloatOps F]

class Facts₀ : Prop where
  transposes_S128x50_S50x128_1_0 : S128x50.Transposes [1, 0] S50x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x128_S128x128_1_0 : S128x128.Transposes [1, 0] S128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S800000x50_S50x128_S800000x128_1_0_0_1_n_n_wf : DotDims.WF S800000x50 S50x128 S800000x128 [1] [0] [0] [1] [] []
  dot_S800000x128_S128x128_S800000x128_1_0_0_1_n_n_wf : DotDims.WF S800000x128 S128x128 S800000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S800000x50_S50x128_S800000x128_1_0_0_1_n_n : DotDims S800000x50 S50x128 S800000x128 where
  lhsContracting := [1]
  rhsContracting := [0]
  lhsNonContracting := [0]
  rhsNonContracting := [1]
  lhsBatch := []
  rhsBatch := []
  wf := dot_S800000x50_S50x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# The arithmetic both programs compute, one row at a time, on the extended reals

Every dense stage of the network is a row function: a row `x` of `D` entries goes through
`k ↦ ∑ j, x j * wa k j + ba k`, the shifted softplus `y ↦ softplus y - log 2`, and a second dense
layer `f ↦ ∑ k, h k * wb f k + bb f`. Softplus is spelt `max y 0 + log1p (exp (-|y|))` by both programs,
behind a test `y ≠ y` that is never true on the extended reals. `log 2` is the same f32 literal in both.
-/

noncomputable section

namespace Cert.Spec

open Idealize.ShloMosaic

/-- The f32 literal both programs subtract after the softplus (`log 2` rounded to f32), read exactly. -/
abbrev ln2 : EReal := Ideal.ofBits .f32 0x3F317218#32

/-- Softplus on the extended reals: `max y 0 + log1p (exp (-|y|))`, with `|y| = max y (-y)`. -/
def sp (y : EReal) : EReal := max y 0 + Ideal.log1p (Ideal.exp (-(max y (-y))))

/-- The softplus as a kernel body spells it: the difference `y - 0` tested against itself (never unequal),
    the exponent written `0 - |y - 0|`. -/
theorem sp_of_sub (y : EReal) :
    Scalar.select (Ideal.cmp .one (y - 0) (y - 0)) (y + 0) (max y 0 + Ideal.log1p (Ideal.exp (0 - max (y - 0) (-(y - 0))))) = sp y := by
  simp [sp, Scalar.select, Ideal.cmp]

/-- The softplus as the host program spells it: the same test by the unordered predicate, the exponent
    written `-|y - 0|`. -/
theorem sp_of_neg (y : EReal) :
    Scalar.select (Ideal.cmp .une (y - 0) (y - 0)) (y + 0) (max y 0 + Ideal.log1p (Ideal.exp (-(max (y - 0) (-(y - 0)))))) = sp y := by
  simp [sp, Scalar.select, Ideal.cmp]

/-- One row through the two dense layers with the shifted softplus between them. -/
def mlp {D : ℕ} (x : Fin D → EReal) (wa : Fin 128 → Fin D → EReal) (ba : Fin 128 → EReal)
    (wb : Fin 128 → Fin 128 → EReal) (bb : Fin 128 → EReal) (f : Fin 128) : EReal :=
  ∑ k : Fin 128, (sp (∑ j : Fin D, x j * wa k j + ba k) - ln2) * wb f k + bb f

end Cert.Spec

end
-- ==== Proof.Pay0.lean ====
import proofs.«423737_j4647154614870_2_alg».proof.Proof.Gen.KernelIdeal.Skeleton
import proofs.«423737_j4647154614870_2_alg».proof.Proof.Spec
import Idealize.ShloMosaic.Lib.ValueIdx
import Idealize.ShloMosaic.Lib.Pipeline.Value
import Idealize.ShloMosaic.PureOps.Ideal.Laws

/-! # The node projection's body at one entry: a row of the block against a row of the weight -/

set_option maxRecDepth 16384

noncomputable section

namespace Cert.KernelIdeal.Stage

open Cert.KernelIdeal Cert.KernelIdeal.Gen Idealize.ShloMosaic Idealize.ShloMosaic.TcCoe Idealize.SL.Sem
open Idealize.ShloMosaic.ValueIdx Cert.Spec
open Cert.KernelIdeal.Facts₀ Cert.KernelIdeal.Facts

/-- The left operand's row is the output's row: axis 0 of the block is not contracted. -/
private theorem lhs_pay0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contraction index: axis 1 of the block is the one contracted axis. -/
private theorem lhs_pay0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction index: axis 0 of the transposed weight is contracted. -/
private theorem rhs_pay0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column: axis 1 of the transposed weight is not contracted. -/
private theorem rhs_pay0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem pay0_apply (x : Vec Ideal S2000x128 .f32) (w : Vec Ideal S128x128 .f32) (p : Fin 2000) (f : Fin 128) :
    k0_pay1 (F := Ideal) x w (ix2 p f) = ∑ k : Fin 128, x (ix2 p k) * w (ix2 f k) := by
  unfold k0_pay1
  simp only [matmul, Ideal.matmul_constant_zero_apply]
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  -- the block is read at (p, k)
  have el : dot_S2000x128_S128x128_S2000x128_1_0_0_1_n_n.lhsIdx (ix2 p f) ((contrEquiv1 dot_S2000x128_S128x128_S2000x128_1_0_0_1_n_n 128 rfl rfl).symm k) = ix2 p k :=
    funext fun a => Fin.ext (by
      match a with
      | ⟨0, _⟩ => exact lhs_pay0_0 _ _
      | ⟨1, _⟩ => exact (lhs_pay0_1 _ _).trans hk)
  -- the transposed weight is read at (k, f)
  have er : dot_S2000x128_S128x128_S2000x128_1_0_0_1_n_n.rhsIdx (ix2 p f) ((contrEquiv1 dot_S2000x128_S128x128_S2000x128_1_0_0_1_n_n 128 rfl rfl).symm k) = ix2 k f :=
    funext fun a => Fin.ext (by
      match a with
      | ⟨0, _⟩ => exact (rhs_pay0_0 _ _).trans hk
      | ⟨1, _⟩ => exact rhs_pay0_1 _ _)
  rw [el, er]
  -- the transpose at (k, f) is the weight at (f, k); the truncations are the identity on the extended reals
  have ht : transpose S128x128 [1, 0] (truncf (F := Ideal) FTy.bf16 w Gen.bitsLt_bf16_f32) Gen.transposes_S128x128_p1_0_S128x128 (ix2 k f)
      = w (ix2 f k) :=
    transpose_apply [1, 0] _ Gen.transposes_S128x128_p1_0_S128x128 (ix2 k f) (ix2 f k)
      (fun b => match b with
        | ⟨0, _⟩ => rfl
        | ⟨1, _⟩ => rfl)
  exact congrArg (fun z : EReal => (x (ix2 p k) : EReal) * z) ht

end Cert.KernelIdeal.Stage

end
-- ==== Proof.Stages.lean ====
import proofs.«423737_j4647154614870_2_alg».proof.Proof.Gen.KernelIdeal
import proofs.«423737_j4647154614870_2_alg».proof.Proof.Spec
import Idealize.ShloMosaic.Lib.ValueIdx

/-!
# The stages of the network as whole arrays

Each definition is one stage of the message-passing layer as a function of whole arrays, over the literal shapes
(50000 nodes, 800000 edges, 128 features, 50 edge attributes): the node projection, the per-edge filter times a
gathered node row, the gather of node rows at the edge list's ids (with and without the fill for an id outside the
table), the two segment sums, and the node-wise output layers.
-/

set_option maxRecDepth 16384

noncomputable section

namespace Cert.KernelIdeal.Stage

open Cert.KernelIdeal Idealize.ShloMosaic Idealize.ShloMosaic.TcCoe Idealize.SL.Sem
open Idealize.ShloMosaic.ValueIdx Cert.Spec
open Cert.KernelIdeal.Facts₀ Cert.KernelIdeal.Facts

/-- the node features through the first linear layer (no bias): row i of x against row f of w -/
def linOf (x : Vec Ideal S50000x128 .f32) (w : Vec Ideal S128x128 .f32) : Vec Ideal S50000x128 .f32 :=
  fun i => ∑ k : Fin 128, x (ix2 (i 0) k) * w (ix2 (i 1) k)

/-- the message array of region 1 for a gathered operand g -/
def msgOf (attr : Vec Ideal S800000x50 .f32) (w1 : Vec Ideal S128x50 .f32) (b1 : Vec Ideal S1x128 .f32)
    (w2 : Vec Ideal S128x128 .f32) (b2 : Vec Ideal S1x128 .f32) (g : Vec Ideal S800000x128 .f32) : Vec Ideal S800000x128 .bf16 :=
  fun i => mlp (fun j : Fin 50 => attr (ix2 (i 0) j)) (fun k j => w1 (ix2 k j)) (fun k => b1 (ix2 0 k))
      (fun f' k => w2 (ix2 f' k)) (fun f' => b2 (ix2 0 f')) (i 1) * g i

/-- the node-wise output: the aggregated messages through the two dense layers -/
def outOf (a : Vec Ideal S50000x128 .bf16) (w1 : Vec Ideal S128x128 .f32) (b1 : Vec Ideal S1x128 .f32)
    (w2 : Vec Ideal S128x128 .f32) (b2 : Vec Ideal S1x128 .f32) : Vec Ideal S50000x128 .f32 :=
  fun i => mlp (fun j : Fin 128 => a (ix2 (i 0) j)) (fun k j => w1 (ix2 k j)) (fun k => b1 (ix2 0 k))
      (fun f' k => w2 (ix2 f' k)) (fun f' => b2 (ix2 0 f')) (i 1)

/-- row 0 of the edge list: the source node of each edge -/
def rowIdx (e : IVec S2x800000 32) : IVec S800000 32 :=
  shapeCast S800000 (extractStridedSlice S1x800000 ![0, 0] e slices_S2x800000_S1x800000_0_0) shapeCasts_S1x800000_S800000
/-- row 1 of the edge list: the target node of each edge -/
def colIdx (e : IVec S2x800000 32) : IVec S800000 32 :=
  shapeCast S800000 (extractStridedSlice S1x800000 ![1, 0] e slices_S2x800000_S1x800000_1_0) shapeCasts_S1x800000_S800000

/-- a node id with a negative one counted from the end -/
def wrapOf (r : IVec S800000 32) : IVec S800000 32 :=
  select (cmpi .slt r (broadcastInDim S800000 ![] bcast_S_S800000 (constantI S_ 32 0#32)))
    (addi r (broadcastInDim S800000 ![] bcast_S_S800000 (constantI S_ 32 50000#32))) r

/-- the rows of x at the wrapped ids -/
def gatherOf (x : FVec Ideal S50000x128 .f32) (r : IVec S800000 32) : FVec Ideal S800000x128 .f32 :=
  Host.gather gather_S50000x128_S800000x1_S800000x128_1_0_n_n_0_1_1128 x
    (broadcastInDim S800000x1 ![0] bcast_S800000_S800000x1_0 (wrapOf r))

/-- the same rows with a fill value where the wrapped id is outside [0, 49999] -/
def takeOf (x : FVec Ideal S50000x128 .f32) (r : IVec S800000 32) : FVec Ideal S800000x128 .f32 :=
  select
    (broadcastInDim S800000x128 ![0] bcast_S800000_S800000x128_0
      (Host.reduce IntOp.andi
        (andi (cmpi .sge (broadcastInDim S800000x1 ![0] bcast_S800000_S800000x1_0 (wrapOf r)) (broadcastInDim S800000x1 ![] bcast_S_S800000x1 (constantI S_ 32 0#32)))
          (cmpi .sle (broadcastInDim S800000x1 ![0] bcast_S800000_S800000x1_0 (wrapOf r))
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (gatherOf x r)
    (broadcastInDim S800000x128 ![] bcast_S_S800000x128 (constant (F := Ideal) S_ .f32 0x7FC00000#32))

/-- the two segment sums added -/
def aggrOf (m1 m2 : FVec Ideal S800000x128 .bf16) (row col : IVec S800000 32) : FVec Ideal S50000x128 .bf16 :=
  truncf .bf16
    (addf
      (Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 col) (extf .f32 m1 bitsLt_bf16_f32))
      (Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 row) (extf .f32 m2 bitsLt_bf16_f32)))
    bitsLt_bf16_f32

/-- a bias vector as a one-row matrix -/
def biasRow (b : FVec Ideal S128 .f32) : FVec Ideal S1x128 .f32 := shapeCast S1x128 b shapeCasts_S128_S1x128

end Cert.KernelIdeal.Stage

end
-- ==== Proof.Region0.lean ====
import proofs.«423737_j4647154614870_2_alg».proof.Proof.Gen.KernelIdeal.Frame
import proofs.«423737_j4647154614870_2_alg».proof.Proof.Pay0
import proofs.«423737_j4647154614870_2_alg».proof.Proof.Stages
import Idealize.ShloMosaic.Lib.ValueIdx
import Idealize.ShloMosaic.Lib.Pipeline.Value
import Idealize.ShloMosaic.PureOps.Ideal.Laws

/-! # The projected node features after the first launch: 25 blocks of 2000 rows tile the array -/

set_option maxRecDepth 16384

noncomputable section

namespace Cert.KernelIdeal.Stage

open Cert.KernelIdeal Cert.KernelIdeal.Gen Idealize.ShloMosaic Idealize.ShloMosaic.TcCoe Idealize.SL.Sem
open Idealize.ShloMosaic.ValueIdx Cert.Spec
open Idealize.ShloMosaic.Pipeline (Dat Cfg Window)
open Cert.KernelIdeal.Facts₀ Cert.KernelIdeal.Facts

/-- The body's one store starts at the origin of its buffer. -/
private theorem hz0 : (![0, 0] : Fin 2 → Nat) = fun _ => 0 := funext fun a => by fin_cases a <;> rfl

/-- The payload at any entry of the block: row `j 0` of the block against row `j 1` of the weight. -/
private theorem pay0_at (x : Vec Ideal S2000x128 .f32) (w : Vec Ideal S128x128 .f32) (j : S2000x128.Idx) :
    k0_pay1 (F := Ideal) x w j = ∑ k : Fin 128, x (ix2 (j 0) k) * w (ix2 (j 1) k) :=
  (congrArg (k0_pay1 (F := Ideal) x w) (eq_ix2 j)).trans (pay0_apply x w (j 0) (j 1))

/-- The index maps, decided over the 25 points: the node block and the output block are block `t` of their arrays'
    rows, all 128 columns; the weight's block is the whole weight at every point. -/
private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- At point `t`, entry `j` of the body's result is the projection at the array index the output block puts `j` at:
    the node block's row `j 0` is the array's row `2000 t + j 0`, the same row the output block writes, and the
    weight's block is the weight. -/
private theorem blk0_point (c : Dev nD) (t : Fin cfg0.N) (j : S2000x128.Idx) :
    k0_pay1 (F := Ideal) (iblk0 V c 0 t) (iblk0 V c 1 t) j
      = linOf (V c main_arg0) (V c main_arg4) (((cfg0.win 2).blk t).view.emb j) := by
  obtain ⟨e0, e1, e2, e3, e4, e5⟩ := idx_facts0 t
  refine (pay0_at (iblk0 V c 0 t) (iblk0 V c 1 t) j).trans ?_
  unfold linOf
  refine Finset.sum_congr rfl fun k _ => ?_
  -- the node block's entry (j 0, k) sits at the array's (2000 t + j 0, k), the row the output block puts j on
  have h0 : ((cfg0.win 0).blk t).view.emb (ix2 (j 0) k)
      = ix2 ((((cfg0.win 2).blk t).view.emb j : S50000x128.Idx) 0) k := by
    funext a; apply Fin.ext
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 128 + 1 * k.val = k.val
      omega
  -- the weight's block is the whole weight: its entry (j 1, k) is the weight's, and j 1 is the output's column
  have h1 : ((cfg0.win 1).blk t).view.emb (ix2 (j 1) k)
      = ix2 ((((cfg0.win 2).blk t).view.emb j : S50000x128.Idx) 1) k := by
    funext a; apply Fin.ext
    match a with
    | ⟨0, _⟩ =>
      show win0_1.index t (0 : Fin 2) * 128 + 1 * (j 1).val = win0_2.index t (1 : Fin 2) * 128 + 1 * (j 1).val
      omega
    | ⟨1, _⟩ =>
      show win0_1.index t (1 : Fin 2) * 128 + 1 * k.val = k.val
      omega
  exact congrArg₂ (fun a b : EReal => a * b) (congrArg (V c main_arg0) h0) (congrArg (V c main_arg4) h1)

/-- What point `t` writes back is block `t` of the projected array. -/
private theorem flushed0_eq (c : Dev nD) (t : Fin cfg0.N) :
    (dat0 (F := Ideal) V c).flushed 2 t
      = ((cfg0.win 2).blk t).view.read (Elt Ideal) (linOf (V c main_arg0) (V c main_arg4)) := by
  show (cfg0.win 2).cut (grid0.coords t) ((dat0 (F := Ideal) V c).after 2 t) = _
  rw [after0_2]
  unfold out0_2
  rw [View.canon_unit_zero hz0]
  simp only [View.ld_unit_zero (S := S2000x128) hz0, View.ld_unit_zero (S := S128x128) hz0]
  funext j
  exact blk0_point V c t j

/-- An index of the array is in point `t`'s block iff each coordinate is in the block's range on its axis. -/
private theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- The 25 blocks of 2000 rows tile the 50000 rows: row `r` is in block `r / 2000`. -/
private theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := by decide
  obtain ⟨t, ht⟩ : ∃ t : Fin cfg0.N, t.val = (i 0).val / 2000 := ⟨⟨(i 0).val / 2000, by rw [hN]; omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

theorem xf_array (c : Dev nD) :
    (dat0 (F := Ideal) V c).arrAt 2 cfg0.N = linOf (V c main_arg0) (V c main_arg4) :=
  (dat0 (F := Ideal) V c).arrAt_eq_of_cover 2 (linOf (V c main_arg0) (V c main_arg4))
    (fun t _ => flushed0_eq V c t) cover0

end Cert.KernelIdeal.Stage

end
-- ==== Proof.Pay1.lean ====
import proofs.«423737_j4647154614870_2_alg».proof.Proof.Gen.KernelIdeal.Skeleton
import proofs.«423737_j4647154614870_2_alg».proof.Proof.Spec
import Idealize.ShloMosaic.Lib.ValueIdx
import Idealize.ShloMosaic.Lib.Pipeline.Value
import Idealize.ShloMosaic.PureOps.Ideal.Laws

/-! # The edge kernel's filter at one entry: the row's two dense layers with the shifted softplus between -/

set_option maxRecDepth 16384

noncomputable section

namespace Cert.KernelIdeal.Stage

open Cert.KernelIdeal Cert.KernelIdeal.Gen Idealize.ShloMosaic Idealize.ShloMosaic.TcCoe Idealize.SL.Sem
open Idealize.ShloMosaic.ValueIdx Cert.Spec
open Cert.KernelIdeal.Facts₀ Cert.KernelIdeal.Facts

/-! ## The two matrix products read at an entry

Each contracts the left operand's axis 1 with the right operand's axis 0; the four lemmas per product say which
coordinate of the output index or of the contraction index each operand axis reads. -/

theorem pay1_lhsA_0 (i : S4000x128.Idx) (q : dot_S4000x50_S50x128_S4000x128_1_0_0_1_n_n.contr.Idx) :
    (dot_S4000x50_S50x128_S4000x128_1_0_0_1_n_n.lhsIdx i q 0).val = (i 0).val := by
  unfold DotDims.lhsIdx
  rw [dif_neg (show ¬(0 : Fin S4000x50.rank) ∈ dot_S4000x50_S50x128_S4000x128_1_0_0_1_n_n.lhsBatch by decide), dif_pos (show (0 : Fin S4000x50.rank) ∈ dot_S4000x50_S50x128_S4000x128_1_0_0_1_n_n.lhsNonContracting by decide)]
  rfl
theorem pay1_lhsA_1 (i : S4000x128.Idx) (q : dot_S4000x50_S50x128_S4000x128_1_0_0_1_n_n.contr.Idx) :
    (dot_S4000x50_S50x128_S4000x128_1_0_0_1_n_n.lhsIdx i q 1).val = (q ⟨0, by decide⟩).val :=
  dot_S4000x50_S50x128_S4000x128_1_0_0_1_n_n.lhsIdx_val_of_single rfl i q
theorem pay1_rhsA_0 (i : S4000x128.Idx) (q : dot_S4000x50_S50x128_S4000x128_1_0_0_1_n_n.contr.Idx) :
    (dot_S4000x50_S50x128_S4000x128_1_0_0_1_n_n.rhsIdx i q 0).val = (q ⟨0, by decide⟩).val :=
  dot_S4000x50_S50x128_S4000x128_1_0_0_1_n_n.rhsIdx_val_of_single rfl i q
theorem pay1_rhsA_1 (i : S4000x128.Idx) (q : dot_S4000x50_S50x128_S4000x128_1_0_0_1_n_n.contr.Idx) :
    (dot_S4000x50_S50x128_S4000x128_1_0_0_1_n_n.rhsIdx i q 1).val = (i 1).val := by
  unfold DotDims.rhsIdx
  rw [dif_neg (show ¬(1 : Fin S50x128.rank) ∈ dot_S4000x50_S50x128_S4000x128_1_0_0_1_n_n.rhsBatch by decide), dif_pos (show (1 : Fin S50x128.rank) ∈ dot_S4000x50_S50x128_S4000x128_1_0_0_1_n_n.rhsNonContracting by decide)]
  rfl

/-- The product of a left operand with a transposed right operand into a zero accumulator, at entry (p, f): the
    contraction index runs over the shared axis, the left operand is read at (p, j), the untransposed right one at (f, j). -/
theorem pay1_mmA_apply (A : FVec Ideal S4000x50 .bf16) (W : FVec Ideal S128x50 .bf16) (p : Fin 4000) (f : Fin 128) :
    matmul dot_S4000x50_S50x128_S4000x128_1_0_0_1_n_n none A (transpose S50x128 [1, 0] W Gen.transposes_S128x50_p1_0_S50x128)
        (constant (F := Ideal) S4000x128 .f32 0x00000000#32) (ix2 p f)
      = ∑ j : Fin 50, (A (ix2 p j) : EReal) * (W (ix2 f j) : EReal) := by
  simp only [matmul]
  rw [Ideal.matmul_constant_zero_apply, ← Equiv.sum_comp (ValueIdx.contrEquiv1 dot_S4000x50_S50x128_S4000x128_1_0_0_1_n_n 50 rfl rfl).symm]
  refine Finset.sum_congr rfl fun j _ => ?_
  have hj := ValueIdx.contrEquiv1_symm_val dot_S4000x50_S50x128_S4000x128_1_0_0_1_n_n 50 rfl rfl j
  have el : dot_S4000x50_S50x128_S4000x128_1_0_0_1_n_n.lhsIdx (ix2 p f) ((ValueIdx.contrEquiv1 dot_S4000x50_S50x128_S4000x128_1_0_0_1_n_n 50 rfl rfl).symm j) = ix2 p j := funext fun a => Fin.ext (by
    match a with
    | ⟨0, _⟩ => exact pay1_lhsA_0 _ _
    | ⟨1, _⟩ => exact (pay1_lhsA_1 _ _).trans hj)
  have er : dot_S4000x50_S50x128_S4000x128_1_0_0_1_n_n.rhsIdx (ix2 p f) ((ValueIdx.contrEquiv1 dot_S4000x50_S50x128_S4000x128_1_0_0_1_n_n 50 rfl rfl).symm j) = ix2 j f := funext fun a => Fin.ext (by
    match a with
    | ⟨0, _⟩ => exact (pay1_rhsA_0 _ _).trans hj
    | ⟨1, _⟩ => exact pay1_rhsA_1 _ _)
  rw [el, er]
  exact congrArg (fun t => (A (ix2 p j) : EReal) * t)
    (transpose_apply [1, 0] W Gen.transposes_S128x50_p1_0_S50x128 (ix2 j f) (ix2 f j) (fun b => match b with
      | ⟨0, _⟩ => rfl
      | ⟨1, _⟩ => rfl))

theorem pay1_lhsB_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem pay1_lhsB_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem pay1_rhsB_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem pay1_rhsB_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a left operand with a transposed right operand into a zero accumulator, at entry (p, f): the
    contraction index runs over the shared axis, the left operand is read at (p, j), the untransposed right one at (f, j). -/
theorem pay1_mmB_apply (A : FVec Ideal S4000x128 .bf16) (W : FVec Ideal S128x128 .bf16) (p : Fin 4000) (f : Fin 128) :
    matmul dot_S4000x128_S128x128_S4000x128_1_0_0_1_n_n none A (transpose S128x128 [1, 0] W Gen.transposes_S128x128_p1_0_S128x128)
        (constant (F := Ideal) S4000x128 .f32 0x00000000#32) (ix2 p f)
      = ∑ j : Fin 128, (A (ix2 p j) : EReal) * (W (ix2 f j) : EReal) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun j _ => ?_
  have hj := ValueIdx.contrEquiv1_symm_val dot_S4000x128_S128x128_S4000x128_1_0_0_1_n_n 128 rfl rfl j
  have el : dot_S4000x128_S128x128_S4000x128_1_0_0_1_n_n.lhsIdx (ix2 p f) ((ValueIdx.contrEquiv1 dot_S4000x128_S128x128_S4000x128_1_0_0_1_n_n 128 rfl rfl).symm j) = ix2 p j := funext fun a => Fin.ext (by
    match a with
    | ⟨0, _⟩ => exact pay1_lhsB_0 _ _
    | ⟨1, _⟩ => exact (pay1_lhsB_1 _ _).trans hj)
  have er : dot_S4000x128_S128x128_S4000x128_1_0_0_1_n_n.rhsIdx (ix2 p f) ((ValueIdx.contrEquiv1 dot_S4000x128_S128x128_S4000x128_1_0_0_1_n_n 128 rfl rfl).symm j) = ix2 j f := funext fun a => Fin.ext (by
    match a with
    | ⟨0, _⟩ => exact (pay1_rhsB_0 _ _).trans hj
    | ⟨1, _⟩ => exact pay1_rhsB_1 _ _)
  rw [el, er]
  exact congrArg (fun t => (A (ix2 p j) : EReal) * t)
    (transpose_apply [1, 0] W Gen.transposes_S128x128_p1_0_S128x128 (ix2 j f) (ix2 f j) (fun b => match b with
      | ⟨0, _⟩ => rfl
      | ⟨1, _⟩ => rfl))

/-- A one-row bias, cast to its own shape and broadcast down the rows, reads the bias at the entry's column. -/
theorem pay1_bias_apply (b : Vec Ideal S1x128 .f32) (p : Fin 4000) (f : Fin 128) :
    broadcastTo S4000x128 (shapeCast S1x128 b Gen.shapeCasts_S1x128_S1x128) Gen.broadcasts_S1x128_S4000x128 (ix2 p f) = b (ix2 0 f) := by
  rw [shapeCast_self]
  exact broadcastTo_apply b Gen.broadcasts_S1x128_S4000x128 (ix2 p f) (ix2 0 f) (fun a => match a with
    | ⟨0, _⟩ => rfl
    | ⟨1, _⟩ => rfl)

/-- The activation between the two layers at an entry: the softplus in the kernel's spelling (the test of `y - 0`
    against itself, the exponent `0 - |y - 0|`), less the literal `log 2`. The zero literal reads as 0. -/
theorem pay1_act_apply (y : FVec Ideal S4000x128 .f32) (i : S4000x128.Idx) :
    subf
      (select (cmpf .one (subf y (broadcast S4000x128 (Scalar.ofBits (F := Ideal) .f32 0x00000000#32))) (subf y (broadcast S4000x128 (Scalar.ofBits (F := Ideal) .f32 0x00000000#32))))
        (addf y (broadcast S4000x128 (Scalar.ofBits (F := Ideal) .f32 0x00000000#32)))
        (addf (maximumf y (broadcast S4000x128 (Scalar.ofBits (F := Ideal) .f32 0x00000000#32)))
          (log1p (exp (subf (broadcast S4000x128 (Scalar.ofBits (F := Ideal) .f32 0x00000000#32)) (absf (subf y (broadcast S4000x128 (Scalar.ofBits (F := Ideal) .f32 0x00000000#32)))))))))
      (broadcast S4000x128 (Scalar.ofBits (F := Ideal) .f32 0x3F317218#32)) i
    = sp (y i) - ln2 := by
  show Scalar.select (Ideal.cmp .one ((y i : EReal) - Ideal.ofBits .f32 0x00000000#32) ((y i : EReal) - Ideal.ofBits .f32 0x00000000#32))
        ((y i : EReal) + Ideal.ofBits .f32 0x00000000#32)
        (max (y i : EReal) (Ideal.ofBits .f32 0x00000000#32)
          + Ideal.log1p (Ideal.exp (Ideal.ofBits .f32 0x00000000#32
              - max ((y i : EReal) - Ideal.ofBits .f32 0x00000000#32) (-((y i : EReal) - Ideal.ofBits .f32 0x00000000#32)))))
      - Ideal.ofBits .f32 0x3F317218#32 = sp (y i) - ln2
  rw [Ideal.ofBits_zero_f32]
  exact congrArg (fun t : EReal => t - ln2) (sp_of_sub (y i))

theorem pay1_mlp_apply (a : Vec Ideal S4000x50 .f32) (w1 : Vec Ideal S128x50 .f32) (b1 : Vec Ideal S1x128 .f32)
    (w2 : Vec Ideal S128x128 .f32) (b2 : Vec Ideal S1x128 .f32) (p : Fin 4000) (f : Fin 128) :
    k1_pay3 (F := Ideal) a w1 b1 w2 b2 (ix2 p f)
      = mlp (fun j : Fin 50 => a (ix2 p j)) (fun k j => w1 (ix2 k j)) (fun k => b1 (ix2 0 k))
          (fun f' k => w2 (ix2 f' k)) (fun f' => b2 (ix2 0 f')) f := by
  unfold k1_pay3
  -- the last addition: the second product plus the second bias
  refine (congrArg₂ (fun x y : EReal => x + y) (pay1_mmB_apply _ _ p f) (pay1_bias_apply b2 p f)).trans ?_
  unfold Cert.Spec.mlp
  refine congrArg₂ (fun x y : EReal => x + y) (Finset.sum_congr rfl fun k _ => ?_) rfl
  refine congrArg₂ (fun x y : EReal => x * y) ?_ rfl
  -- the hidden entry (p, k): the activation of the first product plus the first bias
  refine (pay1_act_apply _ (ix2 p k)).trans ?_
  refine congrArg (fun t : EReal => sp t - ln2) ?_
  exact congrArg₂ (fun x y : EReal => x + y) (pay1_mmA_apply _ _ p k) (pay1_bias_apply b1 p k)

end Cert.KernelIdeal.Stage

end
-- ==== Proof.Region1.lean ====
import proofs.«423737_j4647154614870_2_alg».proof.Proof.Gen.KernelIdeal.Frame
import proofs.«423737_j4647154614870_2_alg».proof.Proof.Pay1
import proofs.«423737_j4647154614870_2_alg».proof.Proof.Stages
import Idealize.ShloMosaic.Lib.ValueIdx
import Idealize.ShloMosaic.Lib.Pipeline.Value
import Idealize.ShloMosaic.PureOps.Ideal.Laws

/-! # The two message arrays after the second launch: 200 blocks of 4000 edges tile each

Point `t` of the grid reads rows `4000 t … 4000 t + 3999` of the edge attributes and of the two gathered node
arrays, and the four weight and bias arrays whole; it writes the same rows of the two message arrays. An entry it
writes is the row's filter (the two dense layers with the shifted softplus between) times the gathered entry at the
same place, so each written block is that block of one whole-array function, and the 200 blocks tile the array. -/

set_option maxRecDepth 16384

noncomputable section

namespace Cert.KernelIdeal.Stage

open Cert.KernelIdeal Cert.KernelIdeal.Gen Idealize.ShloMosaic Idealize.ShloMosaic.TcCoe Idealize.SL.Sem
open Idealize.ShloMosaic.ValueIdx Cert.Spec
open Idealize.ShloMosaic.Pipeline (Dat Cfg Window)
open Cert.KernelIdeal.Facts₀ Cert.KernelIdeal.Facts

variable (V : (c : Dev nD) → (b : Ref sig .tc) → Buf (Elt Ideal) ((c : Thread nD τ).loc b))

/-! ## The payloads at one entry -/

private theorem hz1 : (![0, 0] : Fin 2 → Nat) = fun _ => 0 := funext fun a => by fin_cases a <;> rfl

/-- The first output's payload at an entry: rounding to the narrower type is the identity on the extended reals, the
    product is entrywise, and a reshape to the same shape reads the same entry. -/
private theorem pay7_apply (x0 : Vec Ideal S4000x50 .f32) (x1 : Vec Ideal S128x50 .f32) (x2 : Vec Ideal S1x128 .f32)
    (x3 : Vec Ideal S128x128 .f32) (x4 : Vec Ideal S1x128 .f32) (x5 : Vec Ideal S4000x128 .f32) (p : Fin 4000) (f : Fin 128) :
    k1_pay1 (F := Ideal) (k1_pay5 (F := Ideal) x0 x1 x2 x3 x4 x5) (ix2 p f)
      = (mlp (fun j : Fin 50 => x0 (ix2 p j)) (fun k j => x1 (ix2 k j)) (fun k => x2 (ix2 0 k))
          (fun f' k => x3 (ix2 f' k)) (fun f' => x4 (ix2 0 f')) f : EReal) * (x5 (ix2 p f) : EReal) := by
  show (k1_pay3 (F := Ideal) x0 x1 x2 x3 x4 (ix2 p f) : EReal) * (shapeCast S4000x128 x5 Gen.shapeCasts_S4000x128_S4000x128 (ix2 p f) : EReal) = _
  rw [pay1_mlp_apply, shapeCast_self]

/-- The second output's payload at an entry, likewise. -/
private theorem pay8_apply (x0 : Vec Ideal S4000x50 .f32) (x1 : Vec Ideal S128x50 .f32) (x2 : Vec Ideal S1x128 .f32)
    (x3 : Vec Ideal S128x128 .f32) (x4 : Vec Ideal S1x128 .f32) (x6 : Vec Ideal S4000x128 .f32) (p : Fin 4000) (f : Fin 128) :
    k1_pay2 (F := Ideal) (k1_pay3 (F := Ideal) x0 x1 x2 x3 x4) (k1_pay4 (F := Ideal) x6) (ix2 p f)
      = (mlp (fun j : Fin 50 => x0 (ix2 p j)) (fun k j => x1 (ix2 k j)) (fun k => x2 (ix2 0 k))
          (fun f' k => x3 (ix2 f' k)) (fun f' => x4 (ix2 0 f')) f : EReal) * (x6 (ix2 p f) : EReal) := by
  show (k1_pay3 (F := Ideal) x0 x1 x2 x3 x4 (ix2 p f) : EReal) * (shapeCast S4000x128 x6 Gen.shapeCasts_S4000x128_S4000x128 (ix2 p f) : EReal) = _
  rw [pay1_mlp_apply, shapeCast_self]

/-! ## Where each window's block sits in its array -/

/-- The block indices, decided over the grid: the five row-blocked windows are at block `(t, 0)`, the four whole-array
    windows at block `(0, 0)`. -/
private theorem idx_facts1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The row of the whole array that row `p` of point `t`'s block is: `4000 t + p`. -/
private def row1 (t : Fin cfg1.N) (p : Fin 4000) : Fin 800000 :=
  ⟨t.val * 4000 + p.val, by have ht : t.val < 200 := t.isLt; have hp := p.isLt; omega⟩

/-! A block's coordinate in its array is the block index times the block's size plus the coordinate inside the block. -/

private theorem emb1_0 (t : Fin cfg1.N) (p : Fin 4000) (q : Fin 50) :
    ((cfg1.win 0).blk t).view.emb (ix2 p q) = ix2 (row1 t p) q := by
  obtain ⟨e0, e1, -⟩ := idx_facts1 t
  funext a; apply Fin.ext
  match a with
  | ⟨0, _⟩ => show win1_0.index t (0 : Fin 2) * 4000 + 1 * p.val = t.val * 4000 + p.val; omega
  | ⟨1, _⟩ => show win1_0.index t (1 : Fin 2) * 50 + 1 * q.val = q.val; omega

private theorem emb1_5 (t : Fin cfg1.N) (p : Fin 4000) (q : Fin 128) :
    ((cfg1.win 5).blk t).view.emb (ix2 p q) = ix2 (row1 t p) q := by
  obtain ⟨-, -, e0, e1, -⟩ := idx_facts1 t
  funext a; apply Fin.ext
  match a with
  | ⟨0, _⟩ => show win1_5.index t (0 : Fin 2) * 4000 + 1 * p.val = t.val * 4000 + p.val; omega
  | ⟨1, _⟩ => show win1_5.index t (1 : Fin 2) * 128 + 1 * q.val = q.val; omega

private theorem emb1_6 (t : Fin cfg1.N) (p : Fin 4000) (q : Fin 128) :
    ((cfg1.win 6).blk t).view.emb (ix2 p q) = ix2 (row1 t p) q := by
  obtain ⟨-, -, -, -, e0, e1, -⟩ := idx_facts1 t
  funext a; apply Fin.ext
  match a with
  | ⟨0, _⟩ => show win1_6.index t (0 : Fin 2) * 4000 + 1 * p.val = t.val * 4000 + p.val; omega
  | ⟨1, _⟩ => show win1_6.index t (1 : Fin 2) * 128 + 1 * q.val = q.val; omega

private theorem emb1_7 (t : Fin cfg1.N) (p : Fin 4000) (q : Fin 128) :
    ((cfg1.win 7).blk t).view.emb (ix2 p q) = ix2 (row1 t p) q := by
  obtain ⟨-, -, -, -, -, -, e0, e1, -⟩ := idx_facts1 t
  funext a; apply Fin.ext
  match a with
  | ⟨0, _⟩ => show win1_7.index t (0 : Fin 2) * 4000 + 1 * p.val = t.val * 4000 + p.val; omega
  | ⟨1, _⟩ => show win1_7.index t (1 : Fin 2) * 128 + 1 * q.val = q.val; omega

private theorem emb1_8 (t : Fin cfg1.N) (p : Fin 4000) (q : Fin 128) :
    ((cfg1.win 8).blk t).view.emb (ix2 p q) = ix2 (row1 t p) q := by
  obtain ⟨-, -, -, -, -, -, -, -, e0, e1, -⟩ := idx_facts1 t
  funext a; apply Fin.ext
  match a with
  | ⟨0, _⟩ => show win1_8.index t (0 : Fin 2) * 4000 + 1 * p.val = t.val * 4000 + p.val; omega
  | ⟨1, _⟩ => show win1_8.index t (1 : Fin 2) * 128 + 1 * q.val = q.val; omega

private theorem emb1_1 (t : Fin cfg1.N) (k : Fin 128) (q : Fin 50) :
    ((cfg1.win 1).blk t).view.emb (ix2 k q) = ix2 k q := by
  obtain ⟨-, -, -, -, -, -, -, -, -, -, e0, e1, -⟩ := idx_facts1 t
  funext a; apply Fin.ext
  match a with
  | ⟨0, _⟩ => show win1_1.index t (0 : Fin 2) * 128 + 1 * k.val = k.val; omega
  | ⟨1, _⟩ => show win1_1.index t (1 : Fin 2) * 50 + 1 * q.val = q.val; omega

private theorem emb1_2 (t : Fin cfg1.N) (k : Fin 1) (q : Fin 128) :
    ((cfg1.win 2).blk t).view.emb (ix2 k q) = ix2 k q := by
  obtain ⟨-, -, -, -, -, -, -, -, -, -, -, -, e0, e1, -⟩ := idx_facts1 t
  funext a; apply Fin.ext
  match a with
  | ⟨0, _⟩ => show win1_2.index t (0 : Fin 2) * 1 + 1 * k.val = k.val; omega
  | ⟨1, _⟩ => show win1_2.index t (1 : Fin 2) * 128 + 1 * q.val = q.val; omega

private theorem emb1_3 (t : Fin cfg1.N) (k : Fin 128) (q : Fin 128) :
    ((cfg1.win 3).blk t).view.emb (ix2 k q) = ix2 k q := by
  obtain ⟨-, -, -, -, -, -, -, -, -, -, -, -, -, -, e0, e1, -⟩ := idx_facts1 t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

private theorem emb1_4 (t : Fin cfg1.N) (k : Fin 1) (q : Fin 128) :
    ((cfg1.win 4).blk t).view.emb (ix2 k q) = ix2 k q := by
  obtain ⟨-, -, -, -, -, -, -, -, -, -, -, -, -, -, -, -, e0, e1⟩ := idx_facts1 t
  funext a; apply Fin.ext
  match a with
  | ⟨0, _⟩ => show win1_4.index t (0 : Fin 2) * 1 + 1 * k.val = k.val; omega
  | ⟨1, _⟩ => show win1_4.index t (1 : Fin 2) * 128 + 1 * q.val = q.val; omega

/-! ## The input blocks, read at an entry -/

private abbrev blk1_0 (c : Dev nD) (t : Fin cfg1.N) : Vec Ideal S4000x50 .f32 := iblk1 V c 0 t
private abbrev blk1_1 (c : Dev nD) (t : Fin cfg1.N) : Vec Ideal S128x50 .f32 := iblk1 V c 1 t
private abbrev blk1_2 (c : Dev nD) (t : Fin cfg1.N) : Vec Ideal S1x128 .f32 := iblk1 V c 2 t
private abbrev blk1_3 (c : Dev nD) (t : Fin cfg1.N) : Vec Ideal S128x128 .f32 := iblk1 V c 3 t
private abbrev blk1_4 (c : Dev nD) (t : Fin cfg1.N) : Vec Ideal S1x128 .f32 := iblk1 V c 4 t
private abbrev blk1_5 (c : Dev nD) (t : Fin cfg1.N) : Vec Ideal S4000x128 .f32 := iblk1 V c 5 t
private abbrev blk1_6 (c : Dev nD) (t : Fin cfg1.N) : Vec Ideal S4000x128 .f32 := iblk1 V c 6 t

private theorem blk1_0_apply (c : Dev nD) (t : Fin cfg1.N) (p : Fin 4000) (q : Fin 50) :
    blk1_0 V c t (ix2 p q) = (V c main_arg3 : Vec Ideal S800000x50 .f32) (ix2 (row1 t p) q) :=
  congrArg (V c main_arg3 : Vec Ideal S800000x50 .f32) (emb1_0 t p q)

private theorem blk1_1_apply (c : Dev nD) (t : Fin cfg1.N) (k : Fin 128) (q : Fin 50) :
    blk1_1 V c t (ix2 k q) = (V c main_arg5 : Vec Ideal S128x50 .f32) (ix2 k q) :=
  congrArg (V c main_arg5 : Vec Ideal S128x50 .f32) (emb1_1 t k q)

private theorem blk1_2_apply (c : Dev nD) (t : Fin cfg1.N) (k : Fin 1) (q : Fin 128) :
    blk1_2 V c t (ix2 k q) = (V c main_v7 : Vec Ideal S1x128 .f32) (ix2 k q) :=
  congrArg (V c main_v7 : Vec Ideal S1x128 .f32) (emb1_2 t k q)

private theorem blk1_3_apply (c : Dev nD) (t : Fin cfg1.N) (k : Fin 128) (q : Fin 128) :
    blk1_3 V c t (ix2 k q) = (V c main_arg7 : Vec Ideal S128x128 .f32) (ix2 k q) :=
  congrArg (V c main_arg7 : Vec Ideal S128x128 .f32) (emb1_3 t k q)

private theorem blk1_4_apply (c : Dev nD) (t : Fin cfg1.N) (k : Fin 1) (q : Fin 128) :
    blk1_4 V c t (ix2 k q) = (V c main_v8 : Vec Ideal S1x128 .f32) (ix2 k q) :=
  congrArg (V c main_v8 : Vec Ideal S1x128 .f32) (emb1_4 t k q)

private theorem blk1_5_apply (c : Dev nD) (t : Fin cfg1.N) (p : Fin 4000) (q : Fin 128) :
    blk1_5 V c t (ix2 p q) = (V c main_v5 : Vec Ideal S800000x128 .f32) (ix2 (row1 t p) q) :=
  congrArg (V c main_v5 : Vec Ideal S800000x128 .f32) (emb1_5 t p q)

private theorem blk1_6_apply (c : Dev nD) (t : Fin cfg1.N) (p : Fin 4000) (q : Fin 128) :
    blk1_6 V c t (ix2 p q) = (V c main_v6 : Vec Ideal S800000x128 .f32) (ix2 (row1 t p) q) :=
  congrArg (V c main_v6 : Vec Ideal S800000x128 .f32) (emb1_6 t p q)

/-! ## The first message array -/

/-- One entry of what a point leaves in the first output's buffer is the message array at the entry's place in
    the whole array: the payload is the row's filter times the gathered row's entry, and every block it reads
    sits at the same rows of its array. -/
private theorem point1_7 (c : Dev nD) (t : Fin cfg1.N) (j : S4000x128.Idx) :
    k1_pay1 (F := Ideal) (k1_pay5 (F := Ideal) (blk1_0 V c t) (blk1_1 V c t) (blk1_2 V c t) (blk1_3 V c t) (blk1_4 V c t) (blk1_5 V c t)) j
      = msgOf (V c main_arg3) (V c main_arg5) (V c main_v7) (V c main_arg7) (V c main_v8) (V c main_v5) (((cfg1.win 7).blk t).view.emb j) := by
  obtain ⟨p, q, rfl⟩ : ∃ p q, j = ix2 p q := ⟨j 0, j 1, eq_ix2 j⟩
  rw [pay7_apply, emb1_7]
  simp only [blk1_0_apply, blk1_1_apply, blk1_2_apply, blk1_3_apply, blk1_4_apply, blk1_5_apply]
  rfl

/-- What point `t` writes back to the first output is block `t` of the message array: the body's one store
    covers the whole buffer and its loads read whole blocks. -/
private theorem flushed1_7_eq (c : Dev nD) (t : Fin cfg1.N) :
    (dat1 (F := Ideal) V c).flushed 7 t = ((cfg1.win 7).blk t).view.read (Elt Ideal)
      (msgOf (V c main_arg3) (V c main_arg5) (V c main_v7) (V c main_arg7) (V c main_v8) (V c main_v5)) := by
  show (cfg1.win 7).cut (grid1.coords t) ((dat1 V c).after 7 t) = _
  rw [after1_7]
  unfold out1_7
  rw [View.canon_unit_zero hz1]
  simp only [View.ld_unit_zero (S := S4000x50) hz1, View.ld_unit_zero (S := S128x50) hz1, View.ld_unit_zero (S := S1x128) hz1,
    View.ld_unit_zero (S := S128x128) hz1, View.ld_unit_zero (S := S4000x128) hz1]
  funext j
  exact point1_7 V c t j

/-- An index of the array is in point `t`'s block iff each coordinate is in the block's range on its axis. -/
private theorem mem_blk1_7 (t : Fin cfg1.N) (i : S800000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v9_0).slice (win1_7.rect t)).set ↔ _
  rw [View.set_slice_whole, Rect.mem_set_unit]
  exact Iff.rfl

/-- Every index of the array is in some point's block: row `r` is in the block of point `r / 4000`. -/
private theorem covers1_7 (i : S800000x128.Idx) :
    ∃ t : Fin cfg1.N, (cfg1.win 7).flush t = true ∧ i ∈ ((cfg1.win 7).blk t).view.set := by
  have hi0 : (i 0).val < 800000 := (i 0).isLt
  have hi1 : (i 1).val < 128 := (i 1).isLt
  have ht : (i 0).val / 4000 < 200 := by omega
  obtain ⟨-, -, -, -, -, -, e0, e1, -⟩ := idx_facts1 ⟨(i 0).val / 4000, ht⟩
  refine ⟨⟨(i 0).val / 4000, ht⟩, flush1_7 _, ?_⟩
  rw [mem_blk1_7]
  intro a
  match a with
  | ⟨0, _⟩ =>
    show win1_7.index ⟨(i 0).val / 4000, ht⟩ (0 : Fin 2) * 4000 ≤ (i 0).val ∧ (i 0).val < win1_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, ht⟩ (1 : Fin 2) * 128 ≤ (i 1).val ∧ (i 1).val < win1_7.index ⟨(i 0).val / 4000, ht⟩ (1 : Fin 2) * 128 + 128
    rw [e1]; omega

theorem msg1_array (c : Dev nD) :
    (dat1 (F := Ideal) V c).arrAt 7 cfg1.N
      = msgOf (V c main_arg3) (V c main_arg5) (V c main_v7) (V c main_arg7) (V c main_v8) (V c main_v5) :=
  (dat1 (F := Ideal) V c).arrAt_eq_of_cover 7
    (msgOf (V c main_arg3) (V c main_arg5) (V c main_v7) (V c main_arg7) (V c main_v8) (V c main_v5))
    (fun t _ => flushed1_7_eq V c t) covers1_7

/-! ## The second message array -/

/-- One entry of what a point leaves in the second output's buffer is the message array at the entry's place in
    the whole array: the payload is the row's filter times the gathered row's entry, and every block it reads
    sits at the same rows of its array. -/
private theorem point1_8 (c : Dev nD) (t : Fin cfg1.N) (j : S4000x128.Idx) :
    k1_pay2 (F := Ideal) (k1_pay3 (F := Ideal) (blk1_0 V c t) (blk1_1 V c t) (blk1_2 V c t) (blk1_3 V c t) (blk1_4 V c t)) (k1_pay4 (F := Ideal) (blk1_6 V c t)) j
      = msgOf (V c main_arg3) (V c main_arg5) (V c main_v7) (V c main_arg7) (V c main_v8) (V c main_v6) (((cfg1.win 8).blk t).view.emb j) := by
  obtain ⟨p, q, rfl⟩ : ∃ p q, j = ix2 p q := ⟨j 0, j 1, eq_ix2 j⟩
  rw [pay8_apply, emb1_8]
  simp only [blk1_0_apply, blk1_1_apply, blk1_2_apply, blk1_3_apply, blk1_4_apply, blk1_6_apply]
  rfl

/-- What point `t` writes back to the second output is block `t` of the message array: the body's one store
    covers the whole buffer and its loads read whole blocks. -/
private theorem flushed1_8_eq (c : Dev nD) (t : Fin cfg1.N) :
    (dat1 (F := Ideal) V c).flushed 8 t = ((cfg1.win 8).blk t).view.read (Elt Ideal)
      (msgOf (V c main_arg3) (V c main_arg5) (V c main_v7) (V c main_arg7) (V c main_v8) (V c main_v6)) := by
  show (cfg1.win 8).cut (grid1.coords t) ((dat1 V c).after 8 t) = _
  rw [after1_8]
  unfold out1_8
  rw [View.canon_unit_zero hz1]
  simp only [View.ld_unit_zero (S := S4000x50) hz1, View.ld_unit_zero (S := S128x50) hz1, View.ld_unit_zero (S := S1x128) hz1,
    View.ld_unit_zero (S := S128x128) hz1, View.ld_unit_zero (S := S4000x128) hz1]
  funext j
  exact point1_8 V c t j

/-- An index of the array is in point `t`'s block iff each coordinate is in the block's range on its axis. -/
private theorem mem_blk1_8 (t : Fin cfg1.N) (i : S800000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v9_1).slice (win1_8.rect t)).set ↔ _
  rw [View.set_slice_whole, Rect.mem_set_unit]
  exact Iff.rfl

/-- Every index of the array is in some point's block: row `r` is in the block of point `r / 4000`. -/
private theorem covers1_8 (i : S800000x128.Idx) :
    ∃ t : Fin cfg1.N, (cfg1.win 8).flush t = true ∧ i ∈ ((cfg1.win 8).blk t).view.set := by
  have hi0 : (i 0).val < 800000 := (i 0).isLt
  have hi1 : (i 1).val < 128 := (i 1).isLt
  have ht : (i 0).val / 4000 < 200 := by omega
  obtain ⟨-, -, -, -, -, -, -, -, e0, e1, -⟩ := idx_facts1 ⟨(i 0).val / 4000, ht⟩
  refine ⟨⟨(i 0).val / 4000, ht⟩, flush1_8 _, ?_⟩
  rw [mem_blk1_8]
  intro a
  match a with
  | ⟨0, _⟩ =>
    show win1_8.index ⟨(i 0).val / 4000, ht⟩ (0 : Fin 2) * 4000 ≤ (i 0).val ∧ (i 0).val < win1_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_8.index ⟨(i 0).val / 4000, ht⟩ (1 : Fin 2) * 128 ≤ (i 1).val ∧ (i 1).val < win1_8.index ⟨(i 0).val / 4000, ht⟩ (1 : Fin 2) * 128 + 128
    rw [e1]; omega

theorem msg2_array (c : Dev nD) :
    (dat1 (F := Ideal) V c).arrAt 8 cfg1.N
      = msgOf (V c main_arg3) (V c main_arg5) (V c main_v7) (V c main_arg7) (V c main_v8) (V c main_v6) :=
  (dat1 (F := Ideal) V c).arrAt_eq_of_cover 8
    (msgOf (V c main_arg3) (V c main_arg5) (V c main_v7) (V c main_arg7) (V c main_v8) (V c main_v6))
    (fun t _ => flushed1_8_eq V c t) covers1_8

end Cert.KernelIdeal.Stage

end
-- ==== Proof.Pay2.lean ====
import proofs.«423737_j4647154614870_2_alg».proof.Proof.Gen.KernelIdeal.Skeleton
import proofs.«423737_j4647154614870_2_alg».proof.Proof.Spec
import Idealize.ShloMosaic.Lib.ValueIdx
import Idealize.ShloMosaic.Lib.Pipeline.Value
import Idealize.ShloMosaic.PureOps.Ideal.Laws

/-! # The output kernel's body at one entry: the row's two dense layers with the shifted softplus between

The body is two dense layers over the same dimension numbers (rows of the left operand against rows of the
weight, the weight entering transposed, the accumulator zero), each followed by a bias row broadcast down the
rows, with the shifted softplus applied entrywise between them. Format changes are the identity on the extended
reals, so an entry `(p, f)` of the result is `∑ k, h k * w2 f k + b2 f` with
`h k = sp (∑ j, a p j * w1 k j + b1 k) - ln2`: the row function `Cert.Spec.mlp` at row `p` of `a`. -/

set_option maxRecDepth 16384

noncomputable section

namespace Cert.KernelIdeal.Stage

open Cert.KernelIdeal Cert.KernelIdeal.Gen Idealize.ShloMosaic Idealize.ShloMosaic.TcCoe Idealize.SL.Sem
open Idealize.ShloMosaic.ValueIdx Cert.Spec
open Cert.KernelIdeal.Facts₀ Cert.KernelIdeal.Facts

/-! ## The dense layer's operand indices, axis by axis

The dimension numbers contract axis 1 of the left operand with axis 0 of the right; axis 0 of the left and axis 1
of the right are free. -/

/-- Left operand, free axis: the result's row. -/
private theorem lhs_dense_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Left operand, contracted axis: the contraction position. -/
private theorem lhs_dense_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- Right operand, contracted axis: the contraction position. -/
private theorem rhs_dense_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Right operand, free axis: the result's column. -/
private theorem rhs_dense_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A dense layer at one entry: against the transposed weight and into the zero accumulator, entry `(p, f)` is the
    sum over `k` of row `p` of the left operand times row `f` of the weight. The contraction index is its one
    coordinate; the transpose swaps the weight's two coordinates. -/
private theorem dense_apply {φ₁ φ₂ : FTy} (A : FVec Ideal S2000x128 φ₁) (B : FVec Ideal S128x128 φ₂)
    (ht : S128x128.Transposes [1, 0] S128x128) (p : Fin 2000) (f : Fin 128) :
    matmul dot_S2000x128_S128x128_S2000x128_1_0_0_1_n_n none A (transpose S128x128 [1, 0] B ht)
        (constant (F := Ideal) S2000x128 .f32 0x00000000#32) (ix2 p f)
      = ∑ k : Fin 128, (A (ix2 p k) : EReal) * (B (ix2 f k) : EReal) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p f) ((ValueIdx.contrEquiv1 dot_S2000x128_S128x128_S2000x128_1_0_0_1_n_n 128 rfl rfl).symm k) = ix2 p k := funext fun a => Fin.ext (by
    match a with
    | ⟨0, _⟩ => exact lhs_dense_0 _ _
    | ⟨1, _⟩ => exact (lhs_dense_1 _ _).trans hk)
  have er : dot_S2000x128_S128x128_S2000x128_1_0_0_1_n_n.rhsIdx (ix2 p f) ((ValueIdx.contrEquiv1 dot_S2000x128_S128x128_S2000x128_1_0_0_1_n_n 128 rfl rfl).symm k) = ix2 k f := funext fun a => Fin.ext (by
    match a with
    | ⟨0, _⟩ => exact (rhs_dense_0 _ _).trans hk
    | ⟨1, _⟩ => exact rhs_dense_1 _ _)
  rw [el, er]
  exact congrArg (fun t : EReal => (A (ix2 p k) : EReal) * t)
    (transpose_apply [1, 0] B ht (ix2 k f) (ix2 f k) (fun b => match b with
      | ⟨0, _⟩ => rfl
      | ⟨1, _⟩ => rfl))

/-- A bias row broadcast down the rows reads, at entry `(p, f)`, the row's entry `f`. -/
private theorem bias_apply (b : Vec Ideal S1x128 .f32) (hc : S1x128.ShapeCasts S1x128) (hb : S1x128.Broadcasts S2000x128)
    (p : Fin 2000) (f : Fin 128) :
    broadcastTo S2000x128 (shapeCast S1x128 b hc) hb (ix2 p f) = b (ix2 0 f) := by
  rw [shapeCast_self]
  exact broadcastTo_apply b hb (ix2 p f) (ix2 0 f) (fun a => match a with
    | ⟨0, _⟩ => rfl
    | ⟨1, _⟩ => rfl)

/-! ## The hidden layer -/

/-- The first dense layer with its bias, as the body spells it: the loaded block against the transposed weight,
    plus the bias row broadcast down the rows. -/
private def pre (a : Vec Ideal S2000x128 .bf16) (w1 : Vec Ideal S128x128 .f32) (b1 : Vec Ideal S1x128 .f32) :
    FVec Ideal S2000x128 .f32 :=
  addf
    (matmul (φ₁ := .bf16) (φ₂ := .bf16) dot_S2000x128_S128x128_S2000x128_1_0_0_1_n_n none
      (shapeCast S2000x128 a Gen.shapeCasts_S2000x128_S2000x128 : FVec Ideal S2000x128 .bf16)
      (transpose S128x128 [1, 0] (truncf .bf16 (w1 : FVec Ideal S128x128 .f32) Gen.bitsLt_bf16_f32) Gen.transposes_S128x128_p1_0_S128x128)
      (constant (F := Ideal) S2000x128 .f32 0x00000000#32))
    (broadcastTo S2000x128 (shapeCast S1x128 (b1 : FVec Ideal S1x128 .f32) Gen.shapeCasts_S1x128_S1x128) Gen.broadcasts_S1x128_S2000x128)

/-- Entry `(p, k)` of the first dense layer: row `p` of the block against row `k` of the weight, plus the bias. The
    shape cast to the same shape and the change of float format are the identity. -/
private theorem pre_apply (a : Vec Ideal S2000x128 .bf16) (w1 : Vec Ideal S128x128 .f32) (b1 : Vec Ideal S1x128 .f32)
    (p : Fin 2000) (k : Fin 128) :
    pre a w1 b1 (ix2 p k) = ∑ j : Fin 128, (a (ix2 p j) : EReal) * (w1 (ix2 k j) : EReal) + (b1 (ix2 0 k) : EReal) := by
  have e : pre a w1 b1 (ix2 p k)
      = (matmul (φ₁ := .bf16) (φ₂ := .bf16) dot_S2000x128_S128x128_S2000x128_1_0_0_1_n_n none
          (shapeCast S2000x128 a Gen.shapeCasts_S2000x128_S2000x128 : FVec Ideal S2000x128 .bf16)
          (transpose S128x128 [1, 0] (w1 : FVec Ideal S128x128 .bf16) Gen.transposes_S128x128_p1_0_S128x128)
          (constant (F := Ideal) S2000x128 .f32 0x00000000#32) (ix2 p k) : EReal)
        + (broadcastTo S2000x128 (shapeCast S1x128 (b1 : FVec Ideal S1x128 .f32) Gen.shapeCasts_S1x128_S1x128) Gen.broadcasts_S1x128_S2000x128 (ix2 p k) : EReal) := rfl
  rw [e, dense_apply, bias_apply, shapeCast_self]

/-- The shifted softplus over a whole array, as the body spells it: the difference `y - 0` tested against itself,
    `y + 0` on the (empty) unequal branch, `max y 0 + log1p (exp (0 - |y - 0|))` on the other, then `log 2` subtracted. -/
private def act (y : FVec Ideal S2000x128 .f32) : FVec Ideal S2000x128 .f32 :=
  subf
    (select (cmpf .one (subf y (broadcast S2000x128 (Scalar.ofBits (F := Ideal) .f32 0x00000000#32))) (subf y (broadcast S2000x128 (Scalar.ofBits (F := Ideal) .f32 0x00000000#32))))
      (addf y (broadcast S2000x128 (Scalar.ofBits (F := Ideal) .f32 0x00000000#32)))
      (addf (maximumf y (broadcast S2000x128 (Scalar.ofBits (F := Ideal) .f32 0x00000000#32))) (log1p (exp (subf (broadcast S2000x128 (Scalar.ofBits (F := Ideal) .f32 0x00000000#32)) (absf (subf y (broadcast S2000x128 (Scalar.ofBits (F := Ideal) .f32 0x00000000#32)))))))))
    (broadcast S2000x128 (Scalar.ofBits (F := Ideal) .f32 0x3F317218#32))

/-- Entrywise it is `sp` minus `ln2`: every operation reads at an index, the zero literal is `0`, and the body's
    spelling of the softplus is `Cert.Spec.sp_of_sub`'s. -/
private theorem act_apply (y : FVec Ideal S2000x128 .f32) (i : S2000x128.Idx) : act y i = sp (y i) - ln2 := by
  have h : ∀ t : EReal,
      Scalar.select (Ideal.cmp .one (t - Ideal.ofBits .f32 0x00000000#32) (t - Ideal.ofBits .f32 0x00000000#32))
          (t + Ideal.ofBits .f32 0x00000000#32)
          (max t (Ideal.ofBits .f32 0x00000000#32)
            + Ideal.log1p (Ideal.exp (Ideal.ofBits .f32 0x00000000#32
                - max (t - Ideal.ofBits .f32 0x00000000#32) (-(t - Ideal.ofBits .f32 0x00000000#32)))))
        - ln2 = sp t - ln2 := by
    intro t
    rw [Ideal.ofBits_zero_f32, sp_of_sub]
  exact h (y i)

/-! ## The body at an entry -/

/-- The payload is the second dense layer, over the hidden layer's activation, plus its bias row (by unfolding: the
    intermediate names substitute, a change of float format is the identity). -/
private theorem k2_pay1_eq (a : Vec Ideal S2000x128 .bf16) (w1 : Vec Ideal S128x128 .f32) (b1 : Vec Ideal S1x128 .f32)
    (w2 : Vec Ideal S128x128 .f32) (b2 : Vec Ideal S1x128 .f32) (i : S2000x128.Idx) :
    k2_pay1 (F := Ideal) a w1 b1 w2 b2 i
      = (matmul (φ₁ := .bf16) (φ₂ := .bf16) dot_S2000x128_S128x128_S2000x128_1_0_0_1_n_n none (act (pre a w1 b1))
          (transpose S128x128 [1, 0] (w2 : FVec Ideal S128x128 .bf16) Gen.transposes_S128x128_p1_0_S128x128)
          (constant (F := Ideal) S2000x128 .f32 0x00000000#32) i : EReal)
        + (broadcastTo S2000x128 (shapeCast S1x128 (b2 : FVec Ideal S1x128 .f32) Gen.shapeCasts_S1x128_S1x128) Gen.broadcasts_S1x128_S2000x128 i : EReal) := rfl

theorem pay2_apply (a : Vec Ideal S2000x128 .bf16) (w1 : Vec Ideal S128x128 .f32) (b1 : Vec Ideal S1x128 .f32)
    (w2 : Vec Ideal S128x128 .f32) (b2 : Vec Ideal S1x128 .f32) (p : Fin 2000) (f : Fin 128) :
    k2_pay1 (F := Ideal) a w1 b1 w2 b2 (ix2 p f)
      = mlp (fun j : Fin 128 => a (ix2 p j)) (fun k j => w1 (ix2 k j)) (fun k => b1 (ix2 0 k))
          (fun f' k => w2 (ix2 f' k)) (fun f' => b2 (ix2 0 f')) f := by
  rw [k2_pay1_eq, dense_apply, bias_apply]
  unfold Cert.Spec.mlp
  refine congrArg (fun t : EReal => t + (b2 (ix2 0 f) : EReal)) (Finset.sum_congr rfl fun k _ => ?_)
  rw [act_apply, pre_apply]

end Cert.KernelIdeal.Stage

end
-- ==== Proof.Region2.lean ====
import proofs.«423737_j4647154614870_2_alg».proof.Proof.Gen.KernelIdeal.Frame
import proofs.«423737_j4647154614870_2_alg».proof.Proof.Pay2
import proofs.«423737_j4647154614870_2_alg».proof.Proof.Stages
import Idealize.ShloMosaic.Lib.ValueIdx
import Idealize.ShloMosaic.Lib.Pipeline.Value
import Idealize.ShloMosaic.PureOps.Ideal.Laws

/-! # The output after the third launch: 25 blocks of 2000 rows tile the array -/

set_option maxRecDepth 16384

noncomputable section

namespace Cert.KernelIdeal.Stage

open Cert.KernelIdeal Cert.KernelIdeal.Gen Idealize.ShloMosaic Idealize.ShloMosaic.TcCoe Idealize.SL.Sem
open Idealize.ShloMosaic.ValueIdx Cert.Spec
open Idealize.ShloMosaic.Pipeline (Dat Cfg Window)
open Cert.KernelIdeal.Facts₀ Cert.KernelIdeal.Facts

variable (V : (c : Dev nD) → (b : Ref sig .tc) → Buf (Elt Ideal) ((c : Thread nD τ).loc b))

/-- The row function depends only on its six arguments. -/
theorem r2_mlp_congr {D : ℕ} {x x' : Fin D → EReal} {wa wa' : Fin 128 → Fin D → EReal} {ba ba' : Fin 128 → EReal}
    {wb wb' : Fin 128 → Fin 128 → EReal} {bb bb' : Fin 128 → EReal} {f f' : Fin 128}
    (hx : x = x') (hwa : wa = wa') (hba : ba = ba') (hwb : wb = wb') (hbb : bb = bb') (hf : f = f') :
    mlp x wa ba wb bb f = mlp x' wa' ba' wb' bb' f' := by
  subst hx hwa hba hwb hbb hf; rfl

/-- The output stage read at one entry: the row function of that entry's row. -/
theorem r2_outOf_apply (a : Vec Ideal S50000x128 .bf16) (w1 : Vec Ideal S128x128 .f32) (b1 : Vec Ideal S1x128 .f32)
    (w2 : Vec Ideal S128x128 .f32) (b2 : Vec Ideal S1x128 .f32) (i : S50000x128.Idx) :
    outOf a w1 b1 w2 b2 i
      = mlp (fun j : Fin 128 => a (ix2 (i 0) j)) (fun k j => w1 (ix2 k j)) (fun k => b1 (ix2 0 k))
          (fun f' k => w2 (ix2 f' k)) (fun f' => b2 (ix2 0 f')) (i 1) := rfl

/-- The offset of the one store of the body: both coordinates zero. -/
theorem r2_hz : (![0, 0] : Fin 2 → Nat) = fun _ => 0 := funext fun a => by fin_cases a <;> rfl

/-- The index maps of the six windows, decided over the 25 grid points: the aggregate's and the output's block
    is the point's own row block, every weight and bias window is the whole array at every point. -/
theorem r2_idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the output stage of the arrays the launch finds: the body's entry
    `(p, f)` is the row function of row `p` of the aggregate's block (the payload read at one entry), that row is row
    `t * 2000 + p` of the aggregate (its block moves with the output's), the weight and bias blocks are the whole
    arrays, and the output's block puts entry `(p, f)` at `(t * 2000 + p, f)`. -/
theorem r2_flushed (c : Dev nD) (t : Fin cfg2.N) :
    (dat2 (F := Ideal) V c).flushed 5 t
      = ((cfg2.win 5).blk t).view.read (Elt Ideal)
          (outOf (V c main_v19) (V c main_arg9) (V c main_v20) (V c main_arg11) (V c main_v21)) := by
  show (cfg2.win 5).cut (grid2.coords t) ((dat2 V c).after 5 t) = _
  rw [after2_5]
  unfold out2_5
  rw [View.canon_unit_zero r2_hz]
  simp only [View.ld_unit_zero (S := S2000x128) r2_hz, View.ld_unit_zero (S := S128x128) r2_hz,
    View.ld_unit_zero (S := S1x128) r2_hz]
  funext j
  obtain ⟨e00, e01, e10, e11, e20, e21, e30, e31, e40, e41, e50, e51⟩ := r2_idx_facts t
  refine (congrArg (k2_pay1 (F := Ideal) (iblk2 V c 0 t) (iblk2 V c 1 t) (iblk2 V c 2 t) (iblk2 V c 3 t) (iblk2 V c 4 t)) (eq_ix2 j)).trans ?_
  refine (pay2_apply (iblk2 V c 0 t) (iblk2 V c 1 t) (iblk2 V c 2 t) (iblk2 V c 3 t) (iblk2 V c 4 t) (j 0) (j 1)).trans ?_
  have h0 : ∀ q : Fin 128, ((cfg2.win 0).blk t).view.emb (ix2 (j 0) q) = ix2 ((((cfg2.win 5).blk t).view.emb j) 0) q := by
    intro q; funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * q.val = q.val; omega
  have h5 : (((cfg2.win 5).blk t).view.emb j) 1 = j 1 := by
    apply Fin.ext
    show win2_5.index t (1 : Fin 2) * 128 + 1 * (j 1).val = (j 1).val; omega
  have h1 : ∀ k q : Fin 128, ((cfg2.win 1).blk t).view.emb (ix2 k q) = ix2 k q := by
    intro k q; funext a; apply Fin.ext
    match a with
    | ⟨0, _⟩ => show win2_1.index t (0 : Fin 2) * 128 + 1 * k.val = k.val; omega
    | ⟨1, _⟩ => show win2_1.index t (1 : Fin 2) * 128 + 1 * q.val = q.val; omega
  have h2 : ∀ q : Fin 128, ((cfg2.win 2).blk t).view.emb (ix2 (0 : Fin 1) q) = ix2 (0 : Fin 1) q := by
    intro q; funext a; apply Fin.ext
    match a with
    | ⟨0, _⟩ => show win2_2.index t (0 : Fin 2) * 1 + 1 * 0 = 0; omega
    | ⟨1, _⟩ => show win2_2.index t (1 : Fin 2) * 128 + 1 * q.val = q.val; omega
  have h3 : ∀ k q : Fin 128, ((cfg2.win 3).blk t).view.emb (ix2 k q) = ix2 k q := by
    intro k q; funext a; apply Fin.ext
    match a with
    | ⟨0, _⟩ => show win2_3.index t (0 : Fin 2) * 128 + 1 * k.val = k.val; omega
    | ⟨1, _⟩ => show win2_3.index t (1 : Fin 2) * 128 + 1 * q.val = q.val; omega
  have h4 : ∀ q : Fin 128, ((cfg2.win 4).blk t).view.emb (ix2 (0 : Fin 1) q) = ix2 (0 : Fin 1) q := by
    intro q; funext a; apply Fin.ext
    match a with
    | ⟨0, _⟩ => show win2_4.index t (0 : Fin 2) * 1 + 1 * 0 = 0; omega
    | ⟨1, _⟩ => show win2_4.index t (1 : Fin 2) * 128 + 1 * q.val = q.val; omega
  have hr : ∀ G : Vec Ideal S50000x128 .f32,
      ((cfg2.win 5).blk t).view.read (Elt Ideal) G j = G (((cfg2.win 5).blk t).view.emb j) := fun _ => rfl
  refine Eq.trans ?_ (hr (outOf (V c main_v19) (V c main_arg9) (V c main_v20) (V c main_arg11) (V c main_v21))).symm
  refine Eq.trans ?_ (r2_outOf_apply (V c main_v19) (V c main_arg9) (V c main_v20) (V c main_arg11) (V c main_v21)
    (((cfg2.win 5).blk t).view.emb j)).symm
  exact r2_mlp_congr
    (funext fun q => congrArg (V c main_v19) (h0 q))
    (funext fun k => funext fun q => congrArg (V c main_arg9) (h1 k q))
    (funext fun q => congrArg (V c main_v20) (h2 q))
    (funext fun k => funext fun q => congrArg (V c main_arg11) (h3 k q))
    (funext fun q => congrArg (V c main_v21) (h4 q))
    h5.symm

/-- An entry of the output array lies in point `t`'s block iff each coordinate lies in the block's range on its axis. -/
theorem r2_mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v22).slice (win2_5.rect t)).set ↔ _
  rw [View.set_slice_whole, Rect.mem_set_unit]
  exact Iff.rfl

/-- The 25 blocks of 2000 rows tile the 50000 rows: row `r` lies in the block of point `r / 2000`. -/
theorem r2_cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 25 := by decide
  have hlt : (i 0).val / 2000 < cfg2.N := by show _ < grid2.N; rw [hN]; omega
  obtain ⟨-, -, -, -, -, -, -, -, -, -, e50, e51⟩ := r2_idx_facts ⟨(i 0).val / 2000, hlt⟩
  have e50' : win2_5.index ⟨(i 0).val / 2000, hlt⟩ (0 : Fin 2) = (i 0).val / 2000 := e50
  refine ⟨⟨(i 0).val / 2000, hlt⟩, flush2_5 _, ?_⟩
  rw [r2_mem_blk]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    omega
  | ⟨1, _⟩ =>
    show win2_5.index ⟨(i 0).val / 2000, hlt⟩ (1 : Fin 2) * 128 ≤ (i 1).val
      ∧ (i 1).val < win2_5.index ⟨(i 0).val / 2000, hlt⟩ (1 : Fin 2) * 128 + 128
    omega

/-- The output array after the launch is the output stage of the aggregate and the four weight and bias arrays:
    every point writes back its block of that stage, and the 25 blocks cover every entry. -/
theorem out_array (c : Dev nD) :
    (dat2 (F := Ideal) V c).arrAt 5 cfg2.N
      = outOf (V c main_v19) (V c main_arg9) (V c main_v20) (V c main_arg11) (V c main_v21) :=
  (dat2 (F := Ideal) V c).arrAt_eq_of_cover 5
    (outOf (V c main_v19) (V c main_arg9) (V c main_v20) (V c main_arg11) (V c main_v21))
    (fun t _ => r2_flushed V c t) r2_cover

end Cert.KernelIdeal.Stage

end
-- ==== Proof.HostA.lean ====
import proofs.«423737_j4647154614870_2_alg».proof.Proof.Gen.KernelIdeal.Frame
import proofs.«423737_j4647154614870_2_alg».proof.Proof.Stages
import Idealize.ShloMosaic.Lib.ValueIdx
import Idealize.ShloMosaic.Lib.Pipeline.Value
import Idealize.ShloMosaic.PureOps.Ideal.Laws
import Idealize.ShloMosaic.Lib.StableHlo.Run

/-! # What the second launch is entered with: the host operations between the first two launches, read buffer by buffer -/

set_option maxRecDepth 16384

noncomputable section

namespace Cert.KernelIdeal.Stage

open Cert.KernelIdeal Cert.KernelIdeal.Gen Idealize.ShloMosaic Idealize.ShloMosaic.TcCoe Idealize.SL.Sem
open Idealize.ShloMosaic.ValueIdx Cert.Spec
open Cert.KernelIdeal.Facts₀ Cert.KernelIdeal.Facts

variable (m : (ℓ : Loc nD τ sig) → Buf (Elt Ideal) ℓ) (ρ : Dev nD → PrngReg)

/-- A buffer that no operation of a stretch writes holds after the stretch what it held before: each operation's
    written reference differs from the buffer's. -/
local macro "stretch_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The first launch's output array is its third window: what the pipeline leaves there. -/
theorem V1_v0 (c : Dev nD) : V1 m ρ c main_v0 = (dat0 (V0 m ρ) c).arrAt 2 cfg0.N := W1_arr m ρ c 2
/-- An argument no host operation between the launches writes, and no window of the first launch: as launched. -/
theorem V5_arg3 (c : Dev nD) : V5 m ρ c main_arg3 = m ((c : Thread nD τ).loc main_arg3) :=
  calc W5 m ρ c (Proc.devRef .tc main_arg3)
    _ = W4 m ρ c (Proc.devRef .tc main_arg3) := by stretch_keeps hostOps1_3
    _ = W3 m ρ c (Proc.devRef .tc main_arg3) := by stretch_keeps hostOps1_2
    _ = W2 m ρ c (Proc.devRef .tc main_arg3) := by stretch_keeps hostOps1_1
    _ = W1 m ρ c (Proc.devRef .tc main_arg3) := by stretch_keeps hostOps1
    _ = W0 m ρ c (Proc.devRef .tc main_arg3) := W1_of_ne m ρ c main_arg3 (by decide)
    _ = m ((c : Thread nD τ).loc main_arg3) := rfl
/-- An argument no host operation between the launches writes, and no window of the first launch: as launched. -/
theorem V5_arg5 (c : Dev nD) : V5 m ρ c main_arg5 = m ((c : Thread nD τ).loc main_arg5) :=
  calc W5 m ρ c (Proc.devRef .tc main_arg5)
    _ = W4 m ρ c (Proc.devRef .tc main_arg5) := by stretch_keeps hostOps1_3
    _ = W3 m ρ c (Proc.devRef .tc main_arg5) := by stretch_keeps hostOps1_2
    _ = W2 m ρ c (Proc.devRef .tc main_arg5) := by stretch_keeps hostOps1_1
    _ = W1 m ρ c (Proc.devRef .tc main_arg5) := by stretch_keeps hostOps1
    _ = W0 m ρ c (Proc.devRef .tc main_arg5) := W1_of_ne m ρ c main_arg5 (by decide)
    _ = m ((c : Thread nD τ).loc main_arg5) := rfl
/-- An argument no host operation between the launches writes, and no window of the first launch: as launched. -/
theorem V5_arg7 (c : Dev nD) : V5 m ρ c main_arg7 = m ((c : Thread nD τ).loc main_arg7) :=
  calc W5 m ρ c (Proc.devRef .tc main_arg7)
    _ = W4 m ρ c (Proc.devRef .tc main_arg7) := by stretch_keeps hostOps1_3
    _ = W3 m ρ c (Proc.devRef .tc main_arg7) := by stretch_keeps hostOps1_2
    _ = W2 m ρ c (Proc.devRef .tc main_arg7) := by stretch_keeps hostOps1_1
    _ = W1 m ρ c (Proc.devRef .tc main_arg7) := by stretch_keeps hostOps1
    _ = W0 m ρ c (Proc.devRef .tc main_arg7) := W1_of_ne m ρ c main_arg7 (by decide)
    _ = m ((c : Thread nD τ).loc main_arg7) := rfl

/-- The two bias vectors reach the last stretch as launched: no earlier stretch writes them, nor the first launch. -/
private theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := by stretch_keeps hostOps1_2
    _ = W2 m ρ c (Proc.devRef .tc main_arg6) := by stretch_keeps hostOps1_1
    _ = W1 m ρ c (Proc.devRef .tc main_arg6) := by stretch_keeps hostOps1
    _ = W0 m ρ c (Proc.devRef .tc main_arg6) := W1_of_ne m ρ c main_arg6 (by decide)
    _ = m ((c : Thread nD τ).loc main_arg6) := rfl
private theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := by stretch_keeps hostOps1_2
    _ = W2 m ρ c (Proc.devRef .tc main_arg8) := by stretch_keeps hostOps1_1
    _ = W1 m ρ c (Proc.devRef .tc main_arg8) := by stretch_keeps hostOps1
    _ = W0 m ρ c (Proc.devRef .tc main_arg8) := W1_of_ne m ρ c main_arg8 (by decide)
    _ = m ((c : Thread nD τ).loc main_arg8) := rfl

/-- The last stretch's two reshapes, from any contents: each bias vector as a one-row matrix. -/
private theorem bias7_result (W : Valuation τ sig (Elt Ideal)) :
    StableHlo.after hostOps1_3 W (Proc.devRef .tc main_v7) = biasRow (W (Proc.devRef .tc main_arg6)) := by
  after_results
  rfl
private theorem bias8_result (W : Valuation τ sig (Elt Ideal)) :
    StableHlo.after hostOps1_3 W (Proc.devRef .tc main_v8) = biasRow (W (Proc.devRef .tc main_arg8)) := by
  after_results
  rfl

theorem V5_v7 (c : Dev nD) : V5 m ρ c main_v7 = biasRow (m ((c : Thread nD τ).loc main_arg6)) :=
  (bias7_result (W4 m ρ c)).trans (congrArg biasRow (W4_arg6 m ρ c))
theorem V5_v8 (c : Dev nD) : V5 m ρ c main_v8 = biasRow (m ((c : Thread nD τ).loc main_arg8)) :=
  (bias8_result (W4 m ρ c)).trans (congrArg biasRow (W4_arg8 m ρ c))

/-- The first stretch, from any contents: the edge list's two rows, each sliced out and flattened. -/
private theorem row_result (W : Valuation τ sig (Elt Ideal)) :
    StableHlo.after hostOps1 W (Proc.devRef .tc main_v2) = rowIdx (W (Proc.devRef .tc main_arg1)) := by
  after_results
  rfl
private theorem col_result (W : Valuation τ sig (Elt Ideal)) :
    StableHlo.after hostOps1 W (Proc.devRef .tc main_v4) = colIdx (W (Proc.devRef .tc main_arg1)) := by
  after_results
  rfl

/-- Contents moved to a typed reference's buffer type and back are the contents: the two transports are along one
    equation and its converse. -/
private theorem ofBuf_toBuf {Val : EltTy → Type} {T : BufTy} (x : StableHlo.TRef sig T) (v : T.Contents Val) :
    x.ofBuf (x.toBuf v) = v := by
  obtain ⟨r, h, _, _⟩ := x
  subst h
  rfl

/-- At a literal reference the transport to the buffer's own type is the identity: the take's result buffers. -/
private theorem toBuf_v5 (p1 p2 p3) (X : FVec Ideal S800000x128 .f32) {Y : FVec Ideal S800000x128 .f32} (h : X = Y) :
    (StableHlo.TRef.of main_v5 p1 p2 p3 : StableHlo.TRef sig ⟨S800000x128, .f32⟩).toBuf (Val := Elt Ideal) X = Y := h
private theorem toBuf_v6 (p1 p2 p3) (X : FVec Ideal S800000x128 .f32) {Y : FVec Ideal S800000x128 .f32} (h : X = Y) :
    (StableHlo.TRef.of main_v6 p1 p2 p3 : StableHlo.TRef sig ⟨S800000x128, .f32⟩).toBuf (Val := Elt Ideal) X = Y := h

/-- Each take stretch, from any contents: the node table's rows at the wrapped ids, with the fill where the wrapped id
    falls outside the table. The stretch's operations are the stages' own, one for one; the transports between a
    value's type and its buffer's type cancel in pairs inside, and are the identity at the two operands and the result. -/
private theorem take0_result (W : Valuation τ sig (Elt Ideal)) :
    StableHlo.after hostOps1_1 W (Proc.devRef .tc main_v5)
      = takeOf (W (Proc.devRef .tc main_v0)) (W (Proc.devRef .tc main_v2)) := by
  have h2 : ∀ p1 p2 p3, (StableHlo.TRef.of main_v2 p1 p2 p3 : StableHlo.TRef sig ⟨S800000, .i32⟩).ofBuf
      (W (Proc.devRef .tc main_v2)) = W (Proc.devRef .tc main_v2) := fun _ _ _ => rfl
  have h0 : ∀ p1 p2 p3, (StableHlo.TRef.of main_v0 p1 p2 p3 : StableHlo.TRef sig ⟨S50000x128, .f32⟩).ofBuf
      (W (Proc.devRef .tc main_v0)) = W (Proc.devRef .tc main_v0) := fun _ _ _ => rfl
  after_results_simp
  simp only [ofBuf_toBuf, h2, h0]
  refine toBuf_v5 _ _ _ _ ?_
  unfold takeOf gatherOf wrapOf
  rfl
private theorem take1_result (W : Valuation τ sig (Elt Ideal)) :
    StableHlo.after hostOps1_2 W (Proc.devRef .tc main_v6)
      = takeOf (W (Proc.devRef .tc main_v0)) (W (Proc.devRef .tc main_v4)) := by
  have h4 : ∀ p1 p2 p3, (StableHlo.TRef.of main_v4 p1 p2 p3 : StableHlo.TRef sig ⟨S800000, .i32⟩).ofBuf
      (W (Proc.devRef .tc main_v4)) = W (Proc.devRef .tc main_v4) := fun _ _ _ => rfl
  have h0 : ∀ p1 p2 p3, (StableHlo.TRef.of main_v0 p1 p2 p3 : StableHlo.TRef sig ⟨S50000x128, .f32⟩).ofBuf
      (W (Proc.devRef .tc main_v0)) = W (Proc.devRef .tc main_v0) := fun _ _ _ => rfl
  after_results_simp
  simp only [ofBuf_toBuf, h4, h0]
  refine toBuf_v6 _ _ _ _ ?_
  unfold takeOf gatherOf wrapOf
  rfl

/-- The edge list is as launched when the first stretch reads it: the first launch has no window on it. -/
private theorem W1_arg1 (c : Dev nD) : W1 m ρ c (Proc.devRef .tc main_arg1) = m ((c : Thread nD τ).loc main_arg1) :=
  W1_of_ne m ρ c main_arg1 (by decide)
private theorem W2_v2 (c : Dev nD) : W2 m ρ c (Proc.devRef .tc main_v2) = rowIdx (m ((c : Thread nD τ).loc main_arg1)) :=
  (row_result (W1 m ρ c)).trans (congrArg rowIdx (W1_arg1 m ρ c))
private theorem W2_v4 (c : Dev nD) : W2 m ρ c (Proc.devRef .tc main_v4) = colIdx (m ((c : Thread nD τ).loc main_arg1)) :=
  (col_result (W1 m ρ c)).trans (congrArg colIdx (W1_arg1 m ρ c))
/-- The first stretch does not write the projected node table. -/
private theorem W2_v0 (c : Dev nD) : W2 m ρ c (Proc.devRef .tc main_v0) = V1 m ρ c main_v0 := by
  stretch_keeps hostOps1

/-- The first take: the later stretches leave its result alone; it reads the node table and the source ids as the first
    stretch leaves them. -/
theorem V5_v5 (c : Dev nD) : V5 m ρ c main_v5 = takeOf (V1 m ρ c main_v0) (rowIdx (m ((c : Thread nD τ).loc main_arg1))) :=
  calc W5 m ρ c (Proc.devRef .tc main_v5)
    _ = W4 m ρ c (Proc.devRef .tc main_v5) := by stretch_keeps hostOps1_3
    _ = W3 m ρ c (Proc.devRef .tc main_v5) := by stretch_keeps hostOps1_2
    _ = takeOf (W2 m ρ c (Proc.devRef .tc main_v0)) (W2 m ρ c (Proc.devRef .tc main_v2)) := take0_result (W2 m ρ c)
    _ = takeOf (V1 m ρ c main_v0) (rowIdx (m ((c : Thread nD τ).loc main_arg1))) :=
        congrArg₂ takeOf (W2_v0 m ρ c) (W2_v2 m ρ c)
/-- The second take: the first take's stretch writes neither the node table nor the target ids. -/
theorem V5_v6 (c : Dev nD) : V5 m ρ c main_v6 = takeOf (V1 m ρ c main_v0) (colIdx (m ((c : Thread nD τ).loc main_arg1))) :=
  calc W5 m ρ c (Proc.devRef .tc main_v6)
    _ = W4 m ρ c (Proc.devRef .tc main_v6) := by stretch_keeps hostOps1_3
    _ = takeOf (W3 m ρ c (Proc.devRef .tc main_v0)) (W3 m ρ c (Proc.devRef .tc main_v4)) := take1_result (W3 m ρ c)
    _ = takeOf (W2 m ρ c (Proc.devRef .tc main_v0)) (W2 m ρ c (Proc.devRef .tc main_v4)) :=
        congrArg₂ takeOf (by stretch_keeps hostOps1_1) (by stretch_keeps hostOps1_1)
    _ = takeOf (V1 m ρ c main_v0) (colIdx (m ((c : Thread nD τ).loc main_arg1))) :=
        congrArg₂ takeOf (W2_v0 m ρ c) (W2_v4 m ρ c)

end Cert.KernelIdeal.Stage

end
-- ==== Proof.HostB.lean ====
import proofs.«423737_j4647154614870_2_alg».proof.Proof.Gen.KernelIdeal.Frame
import proofs.«423737_j4647154614870_2_alg».proof.Proof.Stages
import Idealize.ShloMosaic.Lib.ValueIdx
import Idealize.ShloMosaic.Lib.Pipeline.Value
import Idealize.ShloMosaic.PureOps.Ideal.Laws
import Idealize.ShloMosaic.Lib.StableHlo.Run

/-! # What the third launch is entered with, and where the result lies: the host operations after the second launch, read buffer by buffer

The buffer contents at each boundary of the run are a fold from the launch memory: a stretch of host operations
rewrites the buffers it writes and keeps the rest, a launch rewrites its own arrays and keeps the rest. Reading one
buffer at one boundary is walking that fold back: through every stretch that does not write the buffer and every
launch that does not own it, down to the stretch that writes it, whose operations are then read off one by one. -/

set_option maxRecDepth 16384

noncomputable section

namespace Cert.KernelIdeal.Stage

open Cert.KernelIdeal Cert.KernelIdeal.Gen Idealize.ShloMosaic Idealize.ShloMosaic.TcCoe Idealize.SL.Sem
open Idealize.ShloMosaic.ValueIdx Cert.Spec
open Cert.KernelIdeal.Facts₀ Cert.KernelIdeal.Facts

variable (m : (ℓ : Loc nD τ sig) → Buf (Elt Ideal) ℓ) (ρ : Dev nD → PrngReg)

/-- A buffer that no operation of a stretch writes holds after the stretch what it held before it: every operation
    writes a single reference, and distinct references are distinct buffers. -/
local macro "stretch_keeps" : tactic =>
  `(tactic| (refine StableHlo.after_of_forall_not_mem _ _ (List.forall_iff_forall_mem.mp ?_)
             simp only [hostOps1, hostOps1_1, hostOps1_2, hostOps1_3, hostOps2, List.flatten_cons, List.flatten_nil,
               List.append_nil, List.cons_append, List.nil_append, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ## The second launch's two message arrays -/

theorem V6_v9_0 (c : Dev nD) : V6 m ρ c main_v9_0 = (dat1 (V5 m ρ) c).arrAt 7 cfg1.N := W6_arr m ρ c 7
theorem V6_v9_1 (c : Dev nD) : V6 m ρ c main_v9_1 = (dat1 (V5 m ρ) c).arrAt 8 cfg1.N := W6_arr m ρ c 8

/-! ## The edge list's two rows: written by the first stretch after the first launch, kept by everything up to the
    second launch's exit -/

/-- The edge list is an argument the first launch does not own: at its exit the list is as launched. -/
private theorem W1_arg1 (c : Dev nD) : W1 m ρ c (Proc.devRef .tc main_arg1) = m ((c : Thread nD τ).loc main_arg1) :=
  (W1_of_ne m ρ c main_arg1 (by decide)).trans rfl

theorem V6_v2 (c : Dev nD) : V6 m ρ c main_v2 = rowIdx (m ((c : Thread nD τ).loc main_arg1)) :=
  calc W6 m ρ c (Proc.devRef .tc main_v2)
    _ = W5 m ρ c (Proc.devRef .tc main_v2) := W6_of_ne m ρ c main_v2 (by decide)
    _ = W4 m ρ c (Proc.devRef .tc main_v2) := by stretch_keeps
    _ = W3 m ρ c (Proc.devRef .tc main_v2) := by stretch_keeps
    _ = W2 m ρ c (Proc.devRef .tc main_v2) := by stretch_keeps
    _ = rowIdx (W1 m ρ c (Proc.devRef .tc main_arg1)) := by
        -- the slice of row 0, then its reshape to a vector: the two operations `rowIdx` is spelt as
        show StableHlo.after hostOps1 (W1 m ρ c) (Proc.devRef .tc main_v2) = _
        after_results_simp
        rfl
    _ = rowIdx (m ((c : Thread nD τ).loc main_arg1)) := congrArg rowIdx (W1_arg1 m ρ c)

theorem V6_v4 (c : Dev nD) : V6 m ρ c main_v4 = colIdx (m ((c : Thread nD τ).loc main_arg1)) :=
  calc W6 m ρ c (Proc.devRef .tc main_v4)
    _ = W5 m ρ c (Proc.devRef .tc main_v4) := W6_of_ne m ρ c main_v4 (by decide)
    _ = W4 m ρ c (Proc.devRef .tc main_v4) := by stretch_keeps
    _ = W3 m ρ c (Proc.devRef .tc main_v4) := by stretch_keeps
    _ = W2 m ρ c (Proc.devRef .tc main_v4) := by stretch_keeps
    _ = colIdx (W1 m ρ c (Proc.devRef .tc main_arg1)) := by
        -- the slice of row 1, then its reshape to a vector: the two operations `colIdx` is spelt as
        show StableHlo.after hostOps1 (W1 m ρ c) (Proc.devRef .tc main_v4) = _
        after_results_simp
        rfl
    _ = colIdx (m ((c : Thread nD τ).loc main_arg1)) := congrArg colIdx (W1_arg1 m ρ c)

/-! ## The stretch before the third launch

It widens each message array, scatter-adds it into a zero table at one row of the edge list (the first array at the
targets, the second at the sources), adds the two tables, narrows the sum, and reshapes the two bias vectors to rows.
Its operands are read at the second launch's exit. -/

theorem V7_v19 (c : Dev nD) : V7 m ρ c main_v19 = aggrOf (V6 m ρ c main_v9_0) (V6 m ρ c main_v9_1) (V6 m ρ c main_v2) (V6 m ρ c main_v4) := by
  show StableHlo.after hostOps2 (W6 m ρ c) (Proc.devRef .tc main_v19) = _
  after_results_simp
  unfold aggrOf
  rfl

/-- The third launch's first weight matrix: an argument neither earlier launch owns and no stretch writes. -/
private theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by stretch_keeps
    _ = W3 m ρ c (Proc.devRef .tc main_arg9) := by stretch_keeps
    _ = W2 m ρ c (Proc.devRef .tc main_arg9) := by stretch_keeps
    _ = W1 m ρ c (Proc.devRef .tc main_arg9) := by stretch_keeps
    _ = W0 m ρ c (Proc.devRef .tc main_arg9) := W1_of_ne m ρ c main_arg9 (by decide)
    _ = m ((c : Thread nD τ).loc main_arg9) := rfl

/-- The third launch's second weight matrix, likewise as launched. -/
private theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by stretch_keeps
    _ = W3 m ρ c (Proc.devRef .tc main_arg11) := by stretch_keeps
    _ = W2 m ρ c (Proc.devRef .tc main_arg11) := by stretch_keeps
    _ = W1 m ρ c (Proc.devRef .tc main_arg11) := by stretch_keeps
    _ = W0 m ρ c (Proc.devRef .tc main_arg11) := W1_of_ne m ρ c main_arg11 (by decide)
    _ = m ((c : Thread nD τ).loc main_arg11) := rfl

/-- The third launch's first bias vector, likewise as launched. -/
private theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by stretch_keeps
    _ = W3 m ρ c (Proc.devRef .tc main_arg10) := by stretch_keeps
    _ = W2 m ρ c (Proc.devRef .tc main_arg10) := by stretch_keeps
    _ = W1 m ρ c (Proc.devRef .tc main_arg10) := by stretch_keeps
    _ = W0 m ρ c (Proc.devRef .tc main_arg10) := W1_of_ne m ρ c main_arg10 (by decide)
    _ = m ((c : Thread nD τ).loc main_arg10) := rfl

/-- The third launch's second bias vector, likewise as launched. -/
private theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by stretch_keeps
    _ = W3 m ρ c (Proc.devRef .tc main_arg12) := by stretch_keeps
    _ = W2 m ρ c (Proc.devRef .tc main_arg12) := by stretch_keeps
    _ = W1 m ρ c (Proc.devRef .tc main_arg12) := by stretch_keeps
    _ = W0 m ρ c (Proc.devRef .tc main_arg12) := W1_of_ne m ρ c main_arg12 (by decide)
    _ = m ((c : Thread nD τ).loc main_arg12) := rfl

theorem V7_arg9 (c : Dev nD) : V7 m ρ c main_arg9 = m ((c : Thread nD τ).loc main_arg9) :=
  calc W7 m ρ c (Proc.devRef .tc main_arg9)
    _ = W6 m ρ c (Proc.devRef .tc main_arg9) := by stretch_keeps
    _ = m ((c : Thread nD τ).loc main_arg9) := W6_arg9 m ρ c
theorem V7_arg11 (c : Dev nD) : V7 m ρ c main_arg11 = m ((c : Thread nD τ).loc main_arg11) :=
  calc W7 m ρ c (Proc.devRef .tc main_arg11)
    _ = W6 m ρ c (Proc.devRef .tc main_arg11) := by stretch_keeps
    _ = m ((c : Thread nD τ).loc main_arg11) := W6_arg11 m ρ c
theorem V7_v20 (c : Dev nD) : V7 m ρ c main_v20 = biasRow (m ((c : Thread nD τ).loc main_arg10)) :=
  calc W7 m ρ c (Proc.devRef .tc main_v20)
    _ = biasRow (W6 m ρ c (Proc.devRef .tc main_arg10)) := by
        show StableHlo.after hostOps2 (W6 m ρ c) (Proc.devRef .tc main_v20) = _
        after_results_simp
        rfl
    _ = biasRow (m ((c : Thread nD τ).loc main_arg10)) := congrArg biasRow (W6_arg10 m ρ c)
theorem V7_v21 (c : Dev nD) : V7 m ρ c main_v21 = biasRow (m ((c : Thread nD τ).loc main_arg12)) :=
  calc W7 m ρ c (Proc.devRef .tc main_v21)
    _ = biasRow (W6 m ρ c (Proc.devRef .tc main_arg12)) := by
        show StableHlo.after hostOps2 (W6 m ρ c) (Proc.devRef .tc main_v21) = _
        after_results_simp
        rfl
    _ = biasRow (m ((c : Thread nD τ).loc main_arg12)) := congrArg biasRow (W6_arg12 m ρ c)

/-! ## The third launch's result array -/

theorem V8_v22 (c : Dev nD) : W8 m ρ c (Proc.devRef .tc main_v22) = (dat2 (V7 m ρ) c).arrAt 5 cfg2.N := W8_arr m ρ c 5

end Cert.KernelIdeal.Stage

end
-- ==== Proof.InRange.lean ====
import proofs.«423737_j4647154614870_2_alg».proof.Pre_finite_inputs
import proofs.«423737_j4647154614870_2_alg».proof.Proof.Gen.Pre_finite_inputs
import proofs.«423737_j4647154614870_2_alg».proof.Proof.Stages
import Idealize.ShloMosaic.Lib.ValueIdx
import Idealize.ShloMosaic.Lib.Pipeline.Value
import Idealize.ShloMosaic.PureOps.Ideal.Laws
import Idealize.ShloMosaic.Lib.ReduceAll
import Idealize.ShloMosaic.Lib.StableHlo.Predicate

/-! # Under the precondition every node id lies in [0, 50000), so the gather's fill never fires -/

set_option maxRecDepth 16384

noncomputable section

namespace Cert.KernelIdeal.Stage

open Cert.KernelIdeal Idealize.ShloMosaic Idealize.ShloMosaic.TcCoe Idealize.SL.Sem
open Idealize.ShloMosaic.ValueIdx Cert.Spec
open Cert.KernelIdeal.Facts₀ Cert.KernelIdeal.Facts

/-- A left fold by `and` from 1 over words that are all 1 is 1. -/
private theorem foldl_andi_all_one {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]
    exact foldl_andi_all_one f hf l

/-- A reduction by `and` from the constant 1 of a mask that is 1 everywhere is 1 at every result index. -/
private theorem reduce_andi_all_one {s t u : Shape} {axes : List (Fin s.rank)} (m : s.Idx → BitVec 1) (init : u.Idx → BitVec 1)
    (h : s.ReducesTo axes t) (hu : 0 < u.numel) (hinit : ∀ k, init k = 1#1) (hm : ∀ i, m i = 1#1) (j : t.Idx) :
    Host.reduce IntOp.andi m init h hu j = 1#1 := by
  rw [Host.reduce_eq_foldl, hinit]
  exact foldl_andi_all_one m hm _

/-- For a word `v` with `0 ≤ v < 50000` read signed: the wrap `v < 0 ? v + 50000 : v` is `v`, and the wrapped word
    passes both bounds `0 ≤ · ≤ 49999` of the take's mask. -/
private theorem wrap_mask (v : BitVec 32) (h0 : IntOp.cmpi .sge v 0#32 = 1#1) (h1 : IntOp.cmpi .slt v 50000#32 = 1#1) :
    IntOp.andi (IntOp.cmpi .sge (Scalar.select (IntOp.cmpi .slt v 0#32) (IntOp.addi v 50000#32) v) 0#32)
      (IntOp.cmpi .sle (Scalar.select (IntOp.cmpi .slt v 0#32) (IntOp.addi v 50000#32) v) 49999#32) = 1#1 := by
  have z : (0#32 : BitVec 32).toInt = 0 := by decide
  have k : (50000#32 : BitVec 32).toInt = 50000 := by decide
  have k' : (49999#32 : BitVec 32).toInt = 49999 := by decide
  have g0 : 0 ≤ v.toInt := by have := IntOp.cmpi_sge.1 h0; rw [z] at this; exact this
  have g1 : v.toInt < 50000 := by have := IntOp.cmpi_slt.1 h1; rw [k] at this; exact this
  have hs : Scalar.select (IntOp.cmpi .slt v 0#32) (IntOp.addi v 50000#32) v = v :=
    if_neg (fun hc => by have := IntOp.cmpi_slt.1 hc; rw [z] at this; omega)
  rw [hs]
  exact IntOp.andi_eq_one.2 ⟨h0, IntOp.cmpi_sle.2 (by rw [k']; omega)⟩

/-- A select whose condition word is 1 at an index reads its first branch there. -/
private theorem select_of_one {s : Shape} {α : Type} (c : IVec s 1) (a b : s.Idx → α) (i : s.Idx) (hc : c i = 1#1) :
    select c a b i = a i := if_pos hc

/-- With every id in [0, 50000) the take's mask is 1 at every edge, so the take is the gather. -/
private theorem takeOf_of_range (x : FVec Ideal S50000x128 .f32) (r : IVec S800000 32)
    (hr : ∀ e, IntOp.cmpi .sge (r e) 0#32 = 1#1 ∧ IntOp.cmpi .slt (r e) 50000#32 = 1#1) :
    takeOf x r = gatherOf x r := by
  -- the mask of the take is 1 at every [800000,1] index
  have hmask : ∀ k : S800000x1.Idx,
      andi (cmpi .sge (broadcastInDim S800000x1 ![0] bcast_S800000_S800000x1_0 (wrapOf r)) (broadcastInDim S800000x1 ![] bcast_S_S800000x1 (constantI S_ 32 0#32)))
        (cmpi .sle (broadcastInDim S800000x1 ![0] bcast_S800000_S800000x1_0 (wrapOf r))
          (broadcastInDim S800000x1 ![0, 1] bcast_S1x1_S800000x1_0_1 (broadcastInDim S1x1 ![1] bcast_S1_S1x1_1 (constantI S1 32 49999#32)))) k = 1#1 :=
    fun k => wrap_mask (r _) (hr _).1 (hr _).2
  funext i
  unfold takeOf
  refine select_of_one _ _ _ i ?_
  exact reduce_andi_all_one _ _ _ _ (fun _ => rfl) hmask _

/-- The last two conjuncts of the precondition, read back: every word of the edge list is in [0, 50000) signed. -/
private theorem ids_in_range (a0 : FVec Ideal S50000x128 .f32) (a1 : IVec S2x800000 32) (a2 : FVec Ideal S800000 .f32) (a3 : FVec Ideal S800000x50 .f32)
    (a4 : FVec Ideal S128x128 .f32) (a5 : FVec Ideal S128x50 .f32) (a6 : FVec Ideal S128 .f32) (a7 : FVec Ideal S128x128 .f32) (a8 : FVec Ideal S128 .f32)
    (a9 : FVec Ideal S128x128 .f32) (a10 : FVec Ideal S128 .f32) (a11 : FVec Ideal S128x128 .f32) (a12 : FVec Ideal S128 .f32)
    (h : Cert.Pre_finite_inputs.fn (F := Ideal) a0 a1 a2 a3 a4 a5 a6 a7 a8 a9 a10 a11 a12 = fun _ => 1#1)
    (i : S2x800000.Idx) : IntOp.cmpi .sge (a1 i) 0#32 = 1#1 ∧ IntOp.cmpi .slt (a1 i) 50000#32 = 1#1 := by
  haveI : Subsingleton (⟨0, ![]⟩ : Shape).Idx := ⟨fun a b => funext fun d => d.elim0⟩
  have h0 : Cert.Pre_finite_inputs.fn (F := Ideal) a0 a1 a2 a3 a4 a5 a6 a7 a8 a9 a10 a11 a12 (fun d => d.elim0) = 1#1 := congrFun h _
  dsimp only [Cert.Pre_finite_inputs.fn, Cert.Pre_finite_inputs.fn_part1, Cert.Pre_finite_inputs.fn_part2, Cert.Pre_finite_inputs.fn_part3] at h0
  obtain ⟨h62, h65⟩ := IntOp.andi_eq_one.1 h0
  obtain ⟨-, h61⟩ := IntOp.andi_eq_one.1 h62
  exact ⟨Host.reduce_andi_all _ _ _ _ _ h61 i, Host.reduce_andi_all _ _ _ _ _ h65 i⟩

/-- under the precondition every node id is in [0, 50000): the fill of the take never fires -/
theorem take_row (a0 : FVec Ideal S50000x128 .f32) (a1 : IVec S2x800000 32) (a2 : FVec Ideal S800000 .f32) (a3 : FVec Ideal S800000x50 .f32)
    (a4 : FVec Ideal S128x128 .f32) (a5 : FVec Ideal S128x50 .f32) (a6 : FVec Ideal S128 .f32) (a7 : FVec Ideal S128x128 .f32) (a8 : FVec Ideal S128 .f32)
    (a9 : FVec Ideal S128x128 .f32) (a10 : FVec Ideal S128 .f32) (a11 : FVec Ideal S128x128 .f32) (a12 : FVec Ideal S128 .f32)
    (h : Cert.Pre_finite_inputs.fn (F := Ideal) a0 a1 a2 a3 a4 a5 a6 a7 a8 a9 a10 a11 a12 = fun _ => 1#1)
    (x : FVec Ideal S50000x128 .f32) : takeOf x (rowIdx a1) = gatherOf x (rowIdx a1) :=
  -- row 0 of the edge list reads the list at an index, so its words are in range
  takeOf_of_range x (rowIdx a1) fun _ => ids_in_range a0 a1 a2 a3 a4 a5 a6 a7 a8 a9 a10 a11 a12 h _
theorem take_col (a0 : FVec Ideal S50000x128 .f32) (a1 : IVec S2x800000 32) (a2 : FVec Ideal S800000 .f32) (a3 : FVec Ideal S800000x50 .f32)
    (a4 : FVec Ideal S128x128 .f32) (a5 : FVec Ideal S128x50 .f32) (a6 : FVec Ideal S128 .f32) (a7 : FVec Ideal S128x128 .f32) (a8 : FVec Ideal S128 .f32)
    (a9 : FVec Ideal S128x128 .f32) (a10 : FVec Ideal S128 .f32) (a11 : FVec Ideal S128x128 .f32) (a12 : FVec Ideal S128 .f32)
    (h : Cert.Pre_finite_inputs.fn (F := Ideal) a0 a1 a2 a3 a4 a5 a6 a7 a8 a9 a10 a11 a12 = fun _ => 1#1)
    (x : FVec Ideal S50000x128 .f32) : takeOf x (colIdx a1) = gatherOf x (colIdx a1) :=
  -- row 1 of the edge list likewise
  takeOf_of_range x (colIdx a1) fun _ => ids_in_range a0 a1 a2 a3 a4 a5 a6 a7 a8 a9 a10 a11 a12 h _

end Cert.KernelIdeal.Stage

end
-- ==== Proof.RefStages.lean ====
import proofs.«423737_j4647154614870_2_alg».proof.Proof.Gen.ReferenceIdeal.Read
import proofs.«423737_j4647154614870_2_alg».proof.Proof.Spec
import Idealize.ShloMosaic.Lib.ValueIdx
import Idealize.ShloMosaic.Lib.Pipeline.Value
import Idealize.ShloMosaic.PureOps.Ideal.Laws

/-! # The reference's dense stages read at one entry: the same row functions as the kernel's -/

set_option maxRecDepth 16384

noncomputable section

namespace Cert.ReferenceIdeal.Stage
open Cert.ReferenceIdeal Cert.ReferenceIdeal.Read Idealize.ShloMosaic Idealize.ShloMosaic.ValueIdx Cert.Spec

/-- The reference's softplus spelling at a value `y`, its zero literal read as `0`: the unordered test of `y - 0`
    against itself selecting between `y + 0` and `max y 0 + log1p (exp (-|y - 0|))`. It is `sp y` by `sp_of_neg`. -/
private theorem sp_spelling (y : EReal) :
    Scalar.select
        (FloatOps.cmpf (F := Ideal) .une (FloatOps.subf (F := Ideal) (φ := .f32) y (FloatOps.ofBits .f32 0x00000000#32))
          (FloatOps.subf (F := Ideal) (φ := .f32) y (FloatOps.ofBits .f32 0x00000000#32)))
        (FloatOps.addf (F := Ideal) (φ := .f32) y (FloatOps.ofBits .f32 0x00000000#32))
        (FloatOps.addf (F := Ideal) (φ := .f32)
          (FloatOps.maximumf (F := Ideal) (φ := .f32) y (FloatOps.ofBits .f32 0x00000000#32))
          (FloatOps.hostUnary (F := Ideal) (φ := .f32) .log1p
            (FloatOps.hostUnary (F := Ideal) (φ := .f32) .exp
              (FloatOps.hostNegf (F := Ideal) (φ := .f32)
                (FloatOps.hostAbsf (F := Ideal) (φ := .f32)
                  (FloatOps.subf (F := Ideal) (φ := .f32) y (FloatOps.ofBits .f32 0x00000000#32)))))))
      = sp y := by
  simp only [Ideal.ofBits_def, Ideal.ofBits_zero_f32]
  exact sp_of_neg y

/-! ## The node projection -/

theorem ref_lin (x0 : (⟨S50000x128, .f32⟩ : BufTy).Contents (Elt Ideal)) (x4 : (⟨S128x128, .f32⟩ : BufTy).Contents (Elt Ideal)) (i : S50000x128.Idx) :
    val_main_v14 (F := Ideal) x0 x4 i = ∑ k : Fin 128, x0 (ix2 (i 0) k) * x4 (ix2 (i 1) k) := by
  rw [val_main_v14_apply]
  refine Finset.sum_congr rfl fun k _ => ?_
  rw [val_main_v13_apply]
  have el : lidx_main_v14 i k = ix2 (i 0) k := funext fun a => by match a with | ⟨0, _⟩ => rfl | ⟨1, _⟩ => rfl
  have er : idx_main_v13 (ridx_main_v14 i k) = ix2 (i 1) k := funext fun a => by match a with | ⟨0, _⟩ => rfl | ⟨1, _⟩ => rfl
  rw [el, er]
  rfl

/-! ## The edge network -/

/-- the edge network's first dense layer at one entry: row `p 0` of the attributes against row `p 1` of the
    weights, plus the bias at `p 1` -/
private theorem edge_pre (x3 : (⟨S800000x50, .f32⟩ : BufTy).Contents (Elt Ideal)) (x5 : (⟨S128x50, .f32⟩ : BufTy).Contents (Elt Ideal)) (x6 : (⟨S128, .f32⟩ : BufTy).Contents (Elt Ideal)) (p : S800000x128.Idx) :
    val_main_v4 (F := Ideal) x3 x5 x6 p
      = ∑ j : Fin 50, x3 (ix2 (p 0) j) * x5 (ix2 (p 1) j) + x6 (ix1 (p 1)) := by
  rw [val_main_v4_apply, val_main_v1_apply, val_main_v3_apply, val_main_v2_apply, Ideal.addf_def]
  have e3 : idx_main_v2 (idx_main_v3 p) = ix1 (p 1) := funext fun a => by match a with | ⟨0, _⟩ => rfl
  rw [e3]
  refine congrArg (· + x6 (ix1 (p 1))) (Finset.sum_congr rfl fun k _ => ?_)
  rw [val_main_v0_apply]
  have el : lidx_main_v1 p k = ix2 (p 0) k := funext fun a => by match a with | ⟨0, _⟩ => rfl | ⟨1, _⟩ => rfl
  have er : idx_main_v0 (ridx_main_v1 p k) = ix2 (p 1) k := funext fun a => by match a with | ⟨0, _⟩ => rfl | ⟨1, _⟩ => rfl
  rw [el, er]
  rfl

/-- the inlined softplus of the edge network is `sp` of its operand, entry by entry -/
private theorem edge_sp (x3 : (⟨S800000x50, .f32⟩ : BufTy).Contents (Elt Ideal)) (x5 : (⟨S128x50, .f32⟩ : BufTy).Contents (Elt Ideal)) (x6 : (⟨S128, .f32⟩ : BufTy).Contents (Elt Ideal)) (p : S800000x128.Idx) :
    val_main_v5 (F := Ideal) x3 x5 x6 p = sp (val_main_v4 (F := Ideal) x3 x5 x6 p) := by
  rw [val_main_v5_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply]
  simp only [val_main_call0_cst_apply]
  exact sp_spelling _

/-- the edge network's hidden layer at the entry `(a, k)`: the shifted softplus of the first dense layer -/
private theorem edge_hidden (x3 : (⟨S800000x50, .f32⟩ : BufTy).Contents (Elt Ideal)) (x5 : (⟨S128x50, .f32⟩ : BufTy).Contents (Elt Ideal)) (x6 : (⟨S128, .f32⟩ : BufTy).Contents (Elt Ideal)) (a : Fin 800000) (k : Fin 128) :
    val_main_v7 (F := Ideal) x3 x5 x6 (ix2 a k)
      = sp (∑ j : Fin 50, x3 (ix2 a j) * x5 (ix2 k j) + x6 (ix1 k)) - ln2 := by
  rw [val_main_v7_apply, edge_sp, edge_pre, val_main_v6_apply, val_main_cst_apply, Ideal.subf_def, Ideal.ofBits_def]

theorem ref_edge_mlp (x3 : (⟨S800000x50, .f32⟩ : BufTy).Contents (Elt Ideal)) (x5 : (⟨S128x50, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (i : S800000x128.Idx) :
    val_main_v12 (F := Ideal) x3 x5 x6 x7 x8 i
      = mlp (fun j : Fin 50 => x3 (ix2 (i 0) j)) (fun k j => x5 (ix2 k j)) (fun k => x6 (ix1 k))
          (fun f' k => x7 (ix2 f' k)) (fun f' => x8 (ix1 f')) (i 1) := by
  unfold Cert.Spec.mlp
  rw [val_main_v12_apply, val_main_v9_apply, val_main_v11_apply, val_main_v10_apply, Ideal.addf_def]
  have e3 : idx_main_v10 (idx_main_v11 i) = ix1 (i 1) := funext fun a => by match a with | ⟨0, _⟩ => rfl
  rw [e3]
  refine congrArg (· + x8 (ix1 (i 1))) (Finset.sum_congr rfl fun k _ => ?_)
  rw [val_main_v8_apply]
  have el : lidx_main_v9 i k = ix2 (i 0) k := funext fun a => by match a with | ⟨0, _⟩ => rfl | ⟨1, _⟩ => rfl
  have er : idx_main_v8 (ridx_main_v9 i k) = ix2 (i 1) k := funext fun a => by match a with | ⟨0, _⟩ => rfl | ⟨1, _⟩ => rfl
  rw [el, er]
  exact congrArg (· * x7 (ix2 (i 1) k)) (edge_hidden x3 x5 x6 (i 0) k)

/-! ## The node-wise output layers (the aggregate `val_main_v41` enters only through its entries) -/

/-- the output network's first dense layer at one entry: row `p 0` of the aggregate against row `p 1` of the
    weights, plus the bias at `p 1` -/
private theorem out_pre (x0 : (⟨S50000x128, .f32⟩ : BufTy).Contents (Elt Ideal)) (x1 : (⟨S2x800000, .i32⟩ : BufTy).Contents (Elt Ideal)) (x3 : (⟨S800000x50, .f32⟩ : BufTy).Contents (Elt Ideal)) (x4 : (⟨S128x128, .f32⟩ : BufTy).Contents (Elt Ideal)) (x5 : (⟨S128x50, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (p : S50000x128.Idx) :
    val_main_v46 (F := Ideal) x0 x1 x3 x4 x5 x6 x7 x8 x9 x10 p
      = ∑ j : Fin 128, val_main_v41 (F := Ideal) x0 x1 x3 x4 x5 x6 x7 x8 (ix2 (p 0) j) * x9 (ix2 (p 1) j) + x10 (ix1 (p 1)) := by
  rw [val_main_v46_apply, val_main_v43_apply, val_main_v45_apply, val_main_v44_apply, Ideal.addf_def]
  have e3 : idx_main_v44 (idx_main_v45 p) = ix1 (p 1) := funext fun a => by match a with | ⟨0, _⟩ => rfl
  rw [e3]
  refine congrArg (· + x10 (ix1 (p 1))) (Finset.sum_congr rfl fun k _ => ?_)
  rw [val_main_v42_apply]
  have el : lidx_main_v43 p k = ix2 (p 0) k := funext fun a => by match a with | ⟨0, _⟩ => rfl | ⟨1, _⟩ => rfl
  have er : idx_main_v42 (ridx_main_v43 p k) = ix2 (p 1) k := funext fun a => by match a with | ⟨0, _⟩ => rfl | ⟨1, _⟩ => rfl
  rw [el, er]
  rfl

/-- the inlined softplus of the output network is `sp` of its operand, entry by entry -/
private theorem out_sp (x0 : (⟨S50000x128, .f32⟩ : BufTy).Contents (Elt Ideal)) (x1 : (⟨S2x800000, .i32⟩ : BufTy).Contents (Elt Ideal)) (x3 : (⟨S800000x50, .f32⟩ : BufTy).Contents (Elt Ideal)) (x4 : (⟨S128x128, .f32⟩ : BufTy).Contents (Elt Ideal)) (x5 : (⟨S128x50, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (p : S50000x128.Idx) :
    val_main_v47 (F := Ideal) x0 x1 x3 x4 x5 x6 x7 x8 x9 x10 p = sp (val_main_v46 (F := Ideal) x0 x1 x3 x4 x5 x6 x7 x8 x9 x10 p) := by
  rw [val_main_v47_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply]
  simp only [val_main_call1_cst_apply]
  exact sp_spelling _

/-- the output network's hidden layer at the entry `(a, k)`: the shifted softplus of the first dense layer -/
private theorem out_hidden (x0 : (⟨S50000x128, .f32⟩ : BufTy).Contents (Elt Ideal)) (x1 : (⟨S2x800000, .i32⟩ : BufTy).Contents (Elt Ideal)) (x3 : (⟨S800000x50, .f32⟩ : BufTy).Contents (Elt Ideal)) (x4 : (⟨S128x128, .f32⟩ : BufTy).Contents (Elt Ideal)) (x5 : (⟨S128x50, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (a : Fin 50000) (k : Fin 128) :
    val_main_v49 (F := Ideal) x0 x1 x3 x4 x5 x6 x7 x8 x9 x10 (ix2 a k)
      = sp (∑ j : Fin 128, val_main_v41 (F := Ideal) x0 x1 x3 x4 x5 x6 x7 x8 (ix2 a j) * x9 (ix2 k j) + x10 (ix1 k)) - ln2 := by
  rw [val_main_v49_apply, out_sp, out_pre, val_main_v48_apply, val_main_cst_5_apply, Ideal.subf_def, Ideal.ofBits_def]

theorem ref_out (x0 : (⟨S50000x128, .f32⟩ : BufTy).Contents (Elt Ideal)) (x1 : (⟨S2x800000, .i32⟩ : BufTy).Contents (Elt Ideal)) (x3 : (⟨S800000x50, .f32⟩ : BufTy).Contents (Elt Ideal))
    (x4 : (⟨S128x128, .f32⟩ : BufTy).Contents (Elt Ideal)) (x5 : (⟨S128x50, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal))
    (x10 : (⟨S128, .f32⟩ : BufTy).Contents (Elt Ideal)) (x11 : (⟨S128x128, .f32⟩ : BufTy).Contents (Elt Ideal)) (x12 : (⟨S128, .f32⟩ : BufTy).Contents (Elt Ideal)) (i : S50000x128.Idx) :
    val_main_v54 (F := Ideal) x0 x1 x3 x4 x5 x6 x7 x8 x9 x10 x11 x12 i
      = mlp (fun j : Fin 128 => val_main_v41 (F := Ideal) x0 x1 x3 x4 x5 x6 x7 x8 (ix2 (i 0) j)) (fun k j => x9 (ix2 k j)) (fun k => x10 (ix1 k))
          (fun f' k => x11 (ix2 f' k)) (fun f' => x12 (ix1 f')) (i 1) := by
  unfold Cert.Spec.mlp
  rw [val_main_v54_apply, val_main_v51_apply, val_main_v53_apply, val_main_v52_apply, Ideal.addf_def]
  have e3 : idx_main_v52 (idx_main_v53 i) = ix1 (i 1) := funext fun a => by match a with | ⟨0, _⟩ => rfl
  rw [e3]
  refine congrArg (· + x12 (ix1 (i 1))) (Finset.sum_congr rfl fun k _ => ?_)
  rw [val_main_v50_apply]
  have el : lidx_main_v51 i k = ix2 (i 0) k := funext fun a => by match a with | ⟨0, _⟩ => rfl | ⟨1, _⟩ => rfl
  have er : idx_main_v50 (ridx_main_v51 i k) = ix2 (i 1) k := funext fun a => by match a with | ⟨0, _⟩ => rfl | ⟨1, _⟩ => rfl
  rw [el, er]
  exact congrArg (· * x11 (ix2 (i 1) k)) (out_hidden x0 x1 x3 x4 x5 x6 x7 x8 x9 x10 (i 0) k)

end Cert.ReferenceIdeal.Stage

end
-- ==== Proof.Bridge.lean ====
import proofs.«423737_j4647154614870_2_alg».proof.Defs
import proofs.«423737_j4647154614870_2_alg».proof.Proof.KernelRun
import proofs.«423737_j4647154614870_2_alg».proof.Proof.Region0
import proofs.«423737_j4647154614870_2_alg».proof.Proof.Region1
import proofs.«423737_j4647154614870_2_alg».proof.Proof.Region2
import proofs.«423737_j4647154614870_2_alg».proof.Proof.HostA
import proofs.«423737_j4647154614870_2_alg».proof.Proof.HostB
import proofs.«423737_j4647154614870_2_alg».proof.Proof.InRange
import proofs.«423737_j4647154614870_2_alg».proof.Proof.RefStages
import proofs.«423737_j4647154614870_2_alg».proof.Proof.Gen.ReferenceIdeal.Run
import proofs.«423737_j4647154614870_2_alg».proof.Proof.Gen.ReferenceIdeal.Read
import proofs.«423737_j4647154614870_2_alg».proof.Proof.Gen.Pre_finite_inputs
import Idealize.ShloMosaic.Lib.ValueIdx
import Idealize.ShloMosaic.Lib.Pipeline.Value
import Idealize.ShloMosaic.PureOps.Ideal.Laws

/-!
# Both programs compute one function of the launch arrays

`net` is the message-passing layer as one function of the thirteen argument arrays: the node projection, its rows
gathered at the two ends of every edge, the per-edge filter times the gathered row, the two segment sums added, and the
node-wise output layers. The kernel's result array is `net` of its arguments: its three launches leave the stage
arrays, the host operations between them are the gathers and the segment sums, and under the precondition every node
id is in range, so the gather's fill value is never selected. The reference's result is `net` of its arguments stage
by stage: its dense stages are the same row functions, and its gathers and segment sums are the very same operations
on equal arrays.
-/

set_option maxRecDepth 16384

noncomputable section

namespace Cert.Proof.Bridge

open Idealize.ShloMosaic Idealize.ShloMosaic.TcCoe Idealize.SL.Sem Idealize.ShloMosaic.ValueIdx Cert.Spec
open Cert.KernelIdeal.Stage

section net
open Cert.KernelIdeal

/-- The layer as one function of the launch arrays (the edge weights, argument 2, are not read). -/
def net (a0 : FVec Ideal S50000x128 .f32) (a1 : IVec S2x800000 32) (a3 : FVec Ideal S800000x50 .f32) (a4 : FVec Ideal S128x128 .f32)
    (a5 : FVec Ideal S128x50 .f32) (a6 : FVec Ideal S128 .f32) (a7 : FVec Ideal S128x128 .f32) (a8 : FVec Ideal S128 .f32)
    (a9 : FVec Ideal S128x128 .f32) (a10 : FVec Ideal S128 .f32) (a11 : FVec Ideal S128x128 .f32) (a12 : FVec Ideal S128 .f32) :
    FVec Ideal S50000x128 .f32 :=
  outOf
    (aggrOf (msgOf a3 a5 (biasRow a6) a7 (biasRow a8) (gatherOf (linOf a0 a4) (rowIdx a1)))
      (msgOf a3 a5 (biasRow a6) a7 (biasRow a8) (gatherOf (linOf a0 a4) (colIdx a1))) (rowIdx a1) (colIdx a1))
    a9 (biasRow a10) a11 (biasRow a12)

/-- A bias stored as a one-row matrix holds, in column k of its row, entry k of the vector. -/
theorem biasRow_apply (b : FVec Ideal S128 .f32) (k : Fin 128) : biasRow b (ix2 0 k) = b (ix1 k) := by
  unfold biasRow
  exact shapeCast_apply b _ (ix2 0 k) (ix1 k) (by simp [Shape.rowMajor_val_one, Shape.rowMajor_val_two])

end net

section kernel
open Cert.KernelIdeal Cert.KernelIdeal.Gen

variable (m : (ℓ : Loc nD τ sig) → Buf (Elt Ideal) ℓ) (ρ : Dev nD → PrngReg)

/-- The kernel's result array, as the run leaves it, is `net` of the launch arrays: each launch's array by its
    blocks, each host stretch by its operations, the two gathers without their fill under the precondition. -/
theorem kernel_result (hpre : Cert.Pre_KernelIdeal m) (c : Dev nD) :
    W8 m ρ c (Proc.devRef .tc main_v22)
      = net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have hr := take_row _ _ _ _ _ _ _ _ _ _ _ _ _ (hpre c) (linOf (m ((c : Thread nD τ).loc main_arg0)) (m ((c : Thread nD τ).loc main_arg4)))
  have hc := take_col _ _ _ _ _ _ _ _ _ _ _ _ _ (hpre c) (linOf (m ((c : Thread nD τ).loc main_arg0)) (m ((c : Thread nD τ).loc main_arg4)))
  have hxf : V1 m ρ c main_v0 = linOf (m ((c : Thread nD τ).loc main_arg0)) (m ((c : Thread nD τ).loc main_arg4)) :=
    (V1_v0 m ρ c).trans (xf_array (V0 m ρ) c)
  have h5 : V5 m ρ c main_v5 = gatherOf (linOf (m ((c : Thread nD τ).loc main_arg0)) (m ((c : Thread nD τ).loc main_arg4))) (rowIdx (m ((c : Thread nD τ).loc main_arg1))) := by
    rw [V5_v5 m ρ c, hxf]; exact hr
  have h6 : V5 m ρ c main_v6 = gatherOf (linOf (m ((c : Thread nD τ).loc main_arg0)) (m ((c : Thread nD τ).loc main_arg4))) (colIdx (m ((c : Thread nD τ).loc main_arg1))) := by
    rw [V5_v6 m ρ c, hxf]; exact hc
  have hm1 := (V6_v9_0 m ρ c).trans (msg1_array (V5 m ρ) c)
  have hm2 := (V6_v9_1 m ρ c).trans (msg2_array (V5 m ρ) c)
  rw [V5_arg3 m ρ c, V5_arg5 m ρ c, V5_v7 m ρ c, V5_arg7 m ρ c, V5_v8 m ρ c, h5] at hm1
  rw [V5_arg3 m ρ c, V5_arg5 m ρ c, V5_v7 m ρ c, V5_arg7 m ρ c, V5_v8 m ρ c, h6] at hm2
  have ha := V7_v19 m ρ c
  rw [hm1, hm2, V6_v2 m ρ c, V6_v4 m ρ c] at ha
  have ho := (V8_v22 m ρ c).trans (out_array (V7 m ρ) c)
  rw [ha, V7_arg9 m ρ c, V7_v20 m ρ c, V7_arg11 m ρ c, V7_v21 m ρ c] at ho
  exact ho

end kernel

section reference
open Cert.ReferenceIdeal Cert.ReferenceIdeal.Read Cert.ReferenceIdeal.Stage

/-- The reference's node projection is the kernel's, entry by entry. -/
theorem lin_eq (x0 : (⟨S50000x128, .f32⟩ : BufTy).Contents (Elt Ideal)) (x4 : (⟨S128x128, .f32⟩ : BufTy).Contents (Elt Ideal)) :
    val_main_v14 (F := Ideal) x0 x4 = linOf x0 x4 := funext fun i => ref_lin x0 x4 i

/-- The reference's gather at the edges' first ends is the kernel's gather without its fill: the same rows of equal tables. -/
theorem gather_row_eq (x0 : (⟨S50000x128, .f32⟩ : BufTy).Contents (Elt Ideal)) (x1 : (⟨S2x800000, .i32⟩ : BufTy).Contents (Elt Ideal)) (x4 : (⟨S128x128, .f32⟩ : BufTy).Contents (Elt Ideal)) :
    val_main_v25 (F := Ideal) x0 x1 x4 = gatherOf (linOf x0 x4) (rowIdx x1) := by
  unfold val_main_v25; rw [lin_eq]; rfl

/-- The same at the edges' second ends. -/
theorem gather_col_eq (x0 : (⟨S50000x128, .f32⟩ : BufTy).Contents (Elt Ideal)) (x1 : (⟨S2x800000, .i32⟩ : BufTy).Contents (Elt Ideal)) (x4 : (⟨S128x128, .f32⟩ : BufTy).Contents (Elt Ideal)) :
    val_main_v33 (F := Ideal) x0 x1 x4 = gatherOf (linOf x0 x4) (colIdx x1) := by
  unfold val_main_v33; rw [lin_eq]; rfl

/-- The reference's messages toward the edges' second ends are the kernel's: the same filter row times the same
    gathered row, the bias read through its one-row form. -/
theorem msg_row_eq (x0 : (⟨S50000x128, .f32⟩ : BufTy).Contents (Elt Ideal)) (x1 : (⟨S2x800000, .i32⟩ : BufTy).Contents (Elt Ideal)) (x3 : (⟨S800000x50, .f32⟩ : BufTy).Contents (Elt Ideal)) (x4 : (⟨S128x128, .f32⟩ : BufTy).Contents (Elt Ideal)) (x5 : (⟨S128x50, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v26 (F := Ideal) x0 x1 x3 x4 x5 x6 x7 x8
      = msgOf x3 x5 (biasRow x6) x7 (biasRow x8) (gatherOf (linOf x0 x4) (rowIdx x1)) := by
  funext i
  rw [val_main_v26_apply, ref_edge_mlp, gather_row_eq]
  unfold msgOf
  simp only [biasRow_apply]
  rfl

/-- The same toward the edges' first ends. -/
theorem msg_col_eq (x0 : (⟨S50000x128, .f32⟩ : BufTy).Contents (Elt Ideal)) (x1 : (⟨S2x800000, .i32⟩ : BufTy).Contents (Elt Ideal)) (x3 : (⟨S800000x50, .f32⟩ : BufTy).Contents (Elt Ideal)) (x4 : (⟨S128x128, .f32⟩ : BufTy).Contents (Elt Ideal)) (x5 : (⟨S128x50, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v34 (F := Ideal) x0 x1 x3 x4 x5 x6 x7 x8
      = msgOf x3 x5 (biasRow x6) x7 (biasRow x8) (gatherOf (linOf x0 x4) (colIdx x1)) := by
  funext i
  rw [val_main_v34_apply, ref_edge_mlp, gather_col_eq]
  unfold msgOf
  simp only [biasRow_apply]
  rfl

/-- At the extended reals a change of float format is the identity on a whole array. -/
theorem truncf_bf16_id {s : Shape} (v : FVec Ideal s .f32) (h : FTy.bits .bf16 < FTy.bits .f32) :
    truncf (F := Ideal) .bf16 v h = v := rfl
theorem extf_f32_id {s : Shape} (v : FVec Ideal s .bf16) (h : FTy.bits .bf16 < FTy.bits .f32) :
    extf (F := Ideal) .f32 v h = v := rfl

/-- The aggregated messages without the two format changes: one segment sum per direction, added. -/
theorem aggrOf_eq (m1 m2 : FVec Ideal Cert.KernelIdeal.S800000x128 .bf16) (row col : IVec Cert.KernelIdeal.S800000 32) :
    aggrOf m1 m2 row col
      = addf
          (Host.scatterAdd Cert.KernelIdeal.scatter_S50000x128_S800000x1_S800000x128_1_0_0_1
            (broadcastInDim Cert.KernelIdeal.S50000x128 ![] Cert.KernelIdeal.Facts₀.bcast_S_S50000x128 (constant (F := Ideal) Cert.KernelIdeal.S_ .f32 0x00000000#32))
            (broadcastInDim Cert.KernelIdeal.S800000x1 ![0] Cert.KernelIdeal.Facts₀.bcast_S800000_S800000x1_0 col) m1)
          (Host.scatterAdd Cert.KernelIdeal.scatter_S50000x128_S800000x1_S800000x128_1_0_0_1
            (broadcastInDim Cert.KernelIdeal.S50000x128 ![] Cert.KernelIdeal.Facts₀.bcast_S_S50000x128 (constant (F := Ideal) Cert.KernelIdeal.S_ .f32 0x00000000#32))
            (broadcastInDim Cert.KernelIdeal.S800000x1 ![0] Cert.KernelIdeal.Facts₀.bcast_S800000_S800000x1_0 row) m2) := by
  unfold aggrOf
  rw [truncf_bf16_id, extf_f32_id, extf_f32_id]

/-- The two programs' zero arrays, id arrays and scatter shapes are the same terms, by their definitions. -/
theorem zero_eq : val_main_v35 (F := Ideal)
    = broadcastInDim Cert.KernelIdeal.S50000x128 ![] Cert.KernelIdeal.Facts₀.bcast_S_S50000x128 (constant (F := Ideal) Cert.KernelIdeal.S_ .f32 0x00000000#32) := rfl
theorem zero_eq' : val_main_v38 (F := Ideal)
    = broadcastInDim Cert.KernelIdeal.S50000x128 ![] Cert.KernelIdeal.Facts₀.bcast_S_S50000x128 (constant (F := Ideal) Cert.KernelIdeal.S_ .f32 0x00000000#32) := rfl
theorem col_ids_eq (x1 : (⟨S2x800000, .i32⟩ : BufTy).Contents (Elt Ideal)) : val_main_v36 (F := Ideal) x1
    = broadcastInDim Cert.KernelIdeal.S800000x1 ![0] Cert.KernelIdeal.Facts₀.bcast_S800000_S800000x1_0 (colIdx x1) := rfl
theorem row_ids_eq (x1 : (⟨S2x800000, .i32⟩ : BufTy).Contents (Elt Ideal)) : val_main_v39 (F := Ideal) x1
    = broadcastInDim Cert.KernelIdeal.S800000x1 ![0] Cert.KernelIdeal.Facts₀.bcast_S800000_S800000x1_0 (rowIdx x1) := rfl
theorem scatter_dims_eq : Cert.ReferenceIdeal.scatter_S50000x128_S800000x1_S800000x128_1_0_0_1
    = Cert.KernelIdeal.scatter_S50000x128_S800000x1_S800000x128_1_0_0_1 := rfl

/-- The reference's aggregated messages are the kernel's: the same two segment sums of equal message arrays at the
    same ids, added in the same order; the kernel's change of float format on the way is the identity. -/
theorem aggr_eq (x0 : (⟨S50000x128, .f32⟩ : BufTy).Contents (Elt Ideal)) (x1 : (⟨S2x800000, .i32⟩ : BufTy).Contents (Elt Ideal)) (x3 : (⟨S800000x50, .f32⟩ : BufTy).Contents (Elt Ideal)) (x4 : (⟨S128x128, .f32⟩ : BufTy).Contents (Elt Ideal)) (x5 : (⟨S128x50, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v41 (F := Ideal) x0 x1 x3 x4 x5 x6 x7 x8
      = aggrOf (msgOf x3 x5 (biasRow x6) x7 (biasRow x8) (gatherOf (linOf x0 x4) (rowIdx x1)))
          (msgOf x3 x5 (biasRow x6) x7 (biasRow x8) (gatherOf (linOf x0 x4) (colIdx x1))) (rowIdx x1) (colIdx x1) := by
  unfold val_main_v41 val_main_v37 val_main_v40
  rw [msg_row_eq, msg_col_eq, aggrOf_eq, zero_eq, zero_eq', col_ids_eq, row_ids_eq, scatter_dims_eq]

/-- The reference's result is `net` of its arguments. -/
theorem ref_result (x0 : (⟨S50000x128, .f32⟩ : BufTy).Contents (Elt Ideal)) (x1 : (⟨S2x800000, .i32⟩ : BufTy).Contents (Elt Ideal)) (x3 : (⟨S800000x50, .f32⟩ : BufTy).Contents (Elt Ideal)) (x4 : (⟨S128x128, .f32⟩ : BufTy).Contents (Elt Ideal)) (x5 : (⟨S128x50, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v54 (F := Ideal) x0 x1 x3 x4 x5 x6 x7 x8 x9 x10 x11 x12 = net x0 x1 x3 x4 x5 x6 x7 x8 x9 x10 x11 x12 := by
  funext i
  rw [ref_out, aggr_eq]
  unfold net outOf
  simp only [biasRow_apply]

end reference

end Cert.Proof.Bridge

end
-- ==== Proof.lean ====
/-
  The kernel (three launches: the node projection, the per-edge filter times the gathered node rows, the node-wise
  output layers, with the gathers and the two segment sums on the host between them) and the reference compute one
  function of the argument arrays over the extended reals, `Cert.Proof.Bridge.net`, provided every node id of the edge
  list lies in [0, 50000): outside that range the kernel's gather reads a fill value where the reference's reads a
  clamped row. The frames of the two kernel programs are the generated ones; the reference's frame is its generated
  run with the result dropped; no operation was rewritten by the idealization, so `preserves` is trivial.
-/
import proofs.«423737_j4647154614870_2_alg».proof.Defs
import proofs.«423737_j4647154614870_2_alg».proof.Proof.Gen.Kernel
import proofs.«423737_j4647154614870_2_alg».proof.Proof.Gen.Kernel.Skeleton
import proofs.«423737_j4647154614870_2_alg».proof.Proof.Gen.Kernel.Launch
import proofs.«423737_j4647154614870_2_alg».proof.Proof.Gen.Kernel.Points
import proofs.«423737_j4647154614870_2_alg».proof.Proof.Gen.Kernel.Frame
import proofs.«423737_j4647154614870_2_alg».proof.Proof.Gen.KernelIdeal
import proofs.«423737_j4647154614870_2_alg».proof.Proof.Gen.KernelIdeal.Skeleton
import proofs.«423737_j4647154614870_2_alg».proof.Proof.Gen.KernelIdeal.Launch
import proofs.«423737_j4647154614870_2_alg».proof.Proof.Gen.KernelIdeal.Points
import proofs.«423737_j4647154614870_2_alg».proof.Proof.Gen.KernelIdeal.Frame
import proofs.«423737_j4647154614870_2_alg».proof.Proof.Gen.ReferenceIdeal
import proofs.«423737_j4647154614870_2_alg».proof.Proof.Gen.ReferenceIdeal.Run
import proofs.«423737_j4647154614870_2_alg».proof.Proof.Gen.ReferenceIdeal.Read
import proofs.«423737_j4647154614870_2_alg».proof.Proof.Gen.Pre_finite_inputs
import proofs.«423737_j4647154614870_2_alg».proof.Proof.KernelRun
import proofs.«423737_j4647154614870_2_alg».proof.Proof.Bridge
import Idealize.ShloMosaic.Adequacy
import Idealize.ShloMosaic.Init

set_option maxRecDepth 16384

noncomputable section

namespace Cert.Proof

open Idealize.ShloMosaic Idealize.SL.Sem Idealize.ShloMosaic.TcCoe

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with `net` of the arguments in their result arrays:
    the kernel by its three launches and the host operations between them (the node ids in range, by the
    precondition), the reference stage by stage. -/
theorem algebraic : Cert.algebraic_KernelIdeal_ReferenceIdeal := by
  intro m ρ m' ρ' hpre hagree
  refine ⟨fun c => Cert.Proof.Bridge.net
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9))
      (m ((c : Thread Cert.KernelIdeal.nD Cert.KernelIdeal.τ).loc Cert.KernelIdeal.main_arg10))
      (m ((c : Thread Cert.KernelIdeal.nD Cert.KernelIdeal.τ).loc Cert.KernelIdeal.main_arg11))
      (m ((c : Thread Cert.KernelIdeal.nD Cert.KernelIdeal.τ).loc Cert.KernelIdeal.main_arg12)), ?_, ?_⟩
  · exact (θ_run Cert.KernelIdeal.defs _ _).mono
      (fun r h c => ⟨(h c).1.trans (Cert.Proof.Bridge.kernel_result m ρ hpre c), (h c).2⟩)
      (Cert.KernelIdeal.Named.run_named m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12⟩ := hagree c
    rw [(h c).1, Cert.ReferenceIdeal.Read.val_main_v54_eq, Cert.Proof.Bridge.ref_result, e0, e1, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
